-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S1x1 : Shape := ⟨2, ![1, 1]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S1x1 : S_.BroadcastsInDim S1x1 (![] : Fin 0 → Fin S1x1.rank)
  reducesTo_S1x1_S_d0_1 : S1x1.ReducesTo [0, 1] S_

variable [Facts]

def fn {F : FTy → Type} [FloatOps F] (main_arg0 : FVec F S8192x256 .f32) (main_arg1 : FVec F S8192x256 .f32) (main_arg2 : FVec F S1x1 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S1x1 .f32 := Host.absf main_arg2
  let main_cst_2 : FVec F S_ .f32 := constant S_ .f32 0x7F800000#32
  let main_v10 : FVec F S1x1 .f32 := broadcastInDim S1x1 ![] bcast_S_S1x1 main_cst_2
  let main_v11 : IVec S1x1 1 := cmpf .olt main_v9 main_v10
  let main_c_3 : IVec S_ 1 := constantI S_ 1 1#1
  let main_v12 : IVec S_ 1 := (fun x v => Host.reduce IntOp.andi x v reducesTo_S1x1_S_d0_1 h_S_) main_v11 main_c_3
  let main_v13 : IVec S_ 1 := andi main_v8 main_v12
  main_v13
-- ==== Kernel.lean ====
abbrev S8192x256 : Shape := ⟨2, ![8192, 256]⟩
abbrev S1x1 : Shape := ⟨2, ![1, 1]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1024x256 : Shape := ⟨2, ![1024, 256]⟩
abbrev S1024x1 : Shape := ⟨2, ![1024, 1]⟩
abbrev S1x1024 : Shape := ⟨2, ![1, 1024]⟩
abbrev S256x1024 : Shape := ⟨2, ![256, 1024]⟩
abbrev S1024x1024 : Shape := ⟨2, ![1024, 1024]⟩
abbrev S1024 : Shape := ⟨1, ![1024]⟩

abbrev nBuf : Space → Nat
  | .hbm => 13
  | .vmem => 14
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S1x1, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x256, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S1x8192, .f32⟩
  | .hbm, ⟨12, _⟩ => ⟨S8192x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1x1, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v44 : BitVec 1 := Scalar.cmpi .eq arg1 c7_i32
  let v45 : BitVec 32 := Scalar.extui v44
  let c0_i32_25 : BitVec 32 := 0#32
  let v46 : BitVec 1 := Scalar.cmpi .ne v45 c0_i32_25
  v46

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  shapeCasts_S8192x1_S1x8192 : S8192x1.ShapeCasts S1x8192
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  bitsLt_bf16_f32 : FTy.bits .bf16 < FTy.bits .f32
  transposes_S1024x256_p1_0_S256x1024 : S1024x256.Transposes [1, 0] S256x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  broadcasts_S1024x1_S1024x256 : S1024x1.Broadcasts S1024x256
  inb_S1x1_S1x1_0_0 : ∀ a, (![0, 0] : Fin 2 → Nat) a + S1x1.size a ≤ S1x1.size a
  h_S1x1 : 0 < S1x1.numel
  broadcasts_S1x1_S1024x256 : S1x1.Broadcasts S1024x256
  dot_S1024x256_S256x1024_S1024x1024_1_0_0_1_n_n_wf : DotDims.WF S1024x256 S256x1024 S1024x1024 [1] [0] [0] [1] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S8192x256.size a
  hwx0_5 : ∀ i : grid0.Coords, EltTy.bits .f32 = 32 ∨ (Rect.block (s := S8192x256) S1024x256.size (cc0_transform_5 i) (hinb0_5 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x256 : Shape := ⟨2, ![8192, 256]⟩
abbrev S1x1 : Shape := ⟨2, ![1, 1]⟩
abbrev S_ : Shape := ⟨0, ![]⟩
abbrev S8192 : Shape := ⟨1, ![8192]⟩
abbrev S256x8192 : Shape := ⟨2, ![256, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 48
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S1x1, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x256, .f32⟩
  | .hbm, ⟨7, _⟩ => ⟨S_, .f32⟩
  | .hbm, ⟨8, _⟩ => ⟨S8192, .f32⟩
  | .hbm, ⟨9, _⟩ => ⟨S256x8192, .f32⟩
  | .hbm, ⟨10, _⟩ => ⟨S8192x8192, .f32⟩
  | .hbm, ⟨11, _⟩ => ⟨S8192x1, .f32⟩
  | .hbm, ⟨12, _⟩ => ⟨S1x8192, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S8192x256, .f32⟩
  | .hbm, ⟨29, _⟩ => ⟨S8192x256, .f32⟩
  | .hbm, ⟨30, _⟩ => ⟨S_, .f32⟩
  | .hbm, ⟨31, _⟩ => ⟨S8192x256, .f32⟩
  | .hbm, ⟨32, _⟩ => ⟨S8192x256, .f32⟩
  | .hbm, ⟨33, _⟩ => ⟨S8192x256, .f32⟩
  | .hbm, ⟨34, _⟩ => ⟨S8192x256, .f32⟩
  | .hbm, ⟨35, _⟩ => ⟨S8192x256, .f32⟩
  | .hbm, ⟨36, _⟩ => ⟨S8192x256, .f32⟩
  | .hbm, ⟨37, _⟩ => ⟨S8192x256, .f32⟩
  | .hbm, ⟨38, _⟩ => ⟨S8192x256, .f32⟩
  | .hbm, ⟨39, _⟩ => ⟨S8192x256, .f32⟩
  | .hbm, ⟨40, _⟩ => ⟨S8192x256, .f32⟩
  | .hbm, ⟨41, _⟩ => ⟨S8192x256, .f32⟩
  | .hbm, ⟨42, _⟩ => ⟨S_, .f32⟩
  | .hbm, ⟨43, _⟩ => ⟨S8192x256, .f32⟩
  | .hbm, ⟨44, _⟩ => ⟨S8192x256, .f32⟩
  | .hbm, ⟨45, _⟩ => ⟨S_, .f32⟩
  | .hbm, ⟨46, _⟩ => ⟨S8192x256, .f32⟩
  | .hbm, ⟨47, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_cst_6 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  transposes_S8192x256_S256x8192_1_0 : S8192x256.Transposes [1, 0] S256x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  bcast_S_S8192x256 : S_.BroadcastsInDim S8192x256 (![] : Fin 0 → Fin S8192x256.rank)
  bcast_S8192x1_S8192x256_0_1 : S8192x1.BroadcastsInDim S8192x256 (![0, 1] : Fin 2 → Fin S8192x256.rank)
  bcast_S1x1_S8192x256_0_1 : S1x1.BroadcastsInDim S8192x256 (![0, 1] : Fin 2 → Fin S8192x256.rank)
  dot_S8192x256_S256x8192_S8192x8192_1_0_0_1_n_n_wf : DotDims.WF S8192x256 S256x8192 S8192x8192 [1] [0] [0] [1] [] []
  dot_S8192x8192_S8192x256_S8192x256_1_0_0_1_n_n_wf : DotDims.WF S8192x8192 S8192x256 S8192x256 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.Spec.lean ====
/-
  The function both programs compute, over the extended reals, index by index.

  For x, r : [8192, 256] and a scalar w : [1, 1]:
    sqn a i      = ∑_d a[i,d]²                                   (a row's squared norm)
    cross b n    = ∑_d x[b,d] · r[n,d]
    wt b n       = exp (((sqn x b + sqn r n) − 2 · cross b n) · (−1/128))   (a Gaussian weight of the squared distance)
    wsum b       = ∑_n wt b n
    mom1 b d     = ∑_n wt b n · r[n,d]
    mom2 b d     = ∑_n wt b n · r[n,d]²
    result[b,d]  = 1 / (w · ((mom2 b d − (2 · x[b,d]) · mom1 b d) + x[b,d]² · wsum b) + 0.001)

  The sums over n run over all 8192 rows of r. A sum over the rows taken 1024 at a time — the first 1024·j rows, then
  the next 1024 — is the same sum: addition on the extended reals is commutative and associative, so nothing here
  asks for finiteness. The float constants stay as their bit patterns; the same pattern stands on both sides.
-/
import Idealize.ShloMosaic.PureOps.Ideal
import Idealize.ShloMosaic.PureOps.Ideal.Laws
import Idealize.ShloMosaic.Lib.ValueIdx

noncomputable section

namespace Cert.GaussMoment

open Idealize.ShloMosaic Idealize.ShloMosaic.ValueIdx

/-- A [8192, 256] array of extended reals. -/
abbrev Mat : Type := (⟨2, ![8192, 256]⟩ : Shape).Idx → EReal
/-- A [1, 1] array of extended reals. -/
abbrev Scal : Type := (⟨2, ![1, 1]⟩ : Shape).Idx → EReal

/-- The pattern of 2.0. -/
abbrev two : EReal := Ideal.ofBits .f32 0x40000000#32
/-- The pattern of -1/128, the weight's scale. -/
abbrev scale : EReal := Ideal.ofBits .f32 0xBC000000#32
/-- The pattern of 0.001. -/
abbrev eps : EReal := Ideal.ofBits .f32 0x3A83126F#32
/-- The pattern of 1.0. -/
abbrev one : EReal := Ideal.ofBits .f32 0x3F800000#32

/-- A row's squared norm. -/
def sqn (a : Mat) (i : Fin 8192) : EReal := ∑ d : Fin 256, a (ix2 i d) * a (ix2 i d)

/-- The inner product of row b of x with row n of r. -/
def cross (x r : Mat) (b n : Fin 8192) : EReal := ∑ d : Fin 256, x (ix2 b d) * r (ix2 n d)

/-- The Gaussian weight of rows b of x and n of r: exp of the squared distance, expanded, times -1/128. -/
def wt (x r : Mat) (b n : Fin 8192) : EReal :=
  Ideal.exp (((sqn x b + sqn r n) - two * cross x r b n) * scale)

/-- A natural number as a row index (reduced modulo 8192: the identity below 8192). -/
def rowOf (n : ℕ) : Fin 8192 := ⟨n % 8192, Nat.mod_lt _ (by norm_num)⟩

theorem rowOf_val (n : Fin 8192) : rowOf n.val = n := Fin.ext (Nat.mod_eq_of_lt n.isLt)

theorem rowOf_of_lt {n : ℕ} (h : n < 8192) : rowOf n = ⟨n, h⟩ := Fin.ext (Nat.mod_eq_of_lt h)

/-- The sum of f over the first L rows. -/
def upTo (f : Fin 8192 → EReal) (L : ℕ) : EReal := ∑ k ∈ Finset.range L, f (rowOf k)

/-- The sum over all rows is the sum over the first 8192. -/
theorem sum_eq_upTo (f : Fin 8192 → EReal) : ∑ n, f n = upTo f 8192 := by
  unfold upTo
  rw [Finset.sum_range]
  exact Finset.sum_congr rfl fun n _ => by rw [rowOf_val]

theorem upTo_zero (f : Fin 8192 → EReal) : upTo f 0 = 0 := by
  unfold upTo; rw [Finset.range_zero, Finset.sum_empty]

/-- The first L + 1024 rows are the first L, then the next 1024. -/
theorem upTo_add_block (f : Fin 8192 → EReal) (L : ℕ) :
    upTo f (L + 1024) = upTo f L + ∑ k : Fin 1024, f (rowOf (L + k.val)) := by
  unfold upTo
  rw [Finset.sum_range_add]
  exact congrArg _ (Finset.sum_range fun k => f (rowOf (L + k)))

/-- The three sums over the rows of r, as functions of how many rows have been taken. -/
def wsumTo (x r : Mat) (b : Fin 8192) (L : ℕ) : EReal := upTo (fun n => wt x r b n) L
def mom1To (x r : Mat) (b : Fin 8192) (d : Fin 256) (L : ℕ) : EReal := upTo (fun n => wt x r b n * r (ix2 n d)) L
def mom2To (x r : Mat) (b : Fin 8192) (d : Fin 256) (L : ℕ) : EReal :=
  upTo (fun n => wt x r b n * (r (ix2 n d) * r (ix2 n d))) L

/-- The result at row b, column d, from the three sums. -/
def close (x : Mat) (w : Scal) (b : Fin 8192) (d : Fin 256) (s m1 m2 : EReal) : EReal :=
  Ideal.div one (w (ix2 (0 : Fin 1) (0 : Fin 1)) * ((m2 - (two * x (ix2 b d)) * m1) + (x (ix2 b d) * x (ix2 b d)) * s) + eps)

/-- The result array. -/
def result (x r : Mat) (w : Scal) : Mat := fun i =>
  close x w (i 0) (i 1) (wsumTo x r (i 0) 8192) (mom1To x r (i 0) (i 1) 8192) (mom2To x r (i 0) (i 1) 8192)

end Cert.GaussMoment

end
-- ==== Proof.Pieces.lean ====
/-
  What one grid point leaves in the three accumulators the kernel carries along a row block of x — the first moment,
  the second moment and the weight sum — and, at the row block's last point, in the output block: each as the body's
  arithmetic applied to the point's input blocks and to what the point before left. At a row block's first point the
  accumulators are first set to zero and then read back, so the term is the same with zero in place of the carried value.
  These hold at every float instance.
-/
import proofs.«131439_j42932493090900_1_alg».proof.Proof.Gen.KernelIdeal.Frame
import Idealize.ShloMosaic.Lib.Pipeline.Value
import Idealize.ShloMosaic.Lib.Tactic

set_option maxRecDepth 16384

noncomputable section

namespace Cert.KernelIdeal.Piece

open Cert.KernelIdeal Cert.KernelIdeal.Gen Idealize.ShloMosaic Idealize.ShloMosaic.TcCoe Idealize.SL.Sem

variable {F : FTy → Type} [FloatOps F]

/-- The zero offsets of a whole-buffer rectangle. -/
theorem hz : (![0, 0] : Fin 2 → Nat) = fun _ => 0 := funext fun a => by fin_cases a <;> rfl

/-- The first point of a row block of x: the first-moment scratch is reset to zero and the block's term added. -/
theorem first_mom1 (c : Dev nD) (i : grid0.Coords) (a2 : Memref sig .tc .vmem S1024x256 .f32) (h2 : a2.IsWhole) (a3 : Memref sig .tc .vmem S1024x256 .f32) (h3 : a3.IsWhole) (a4 : Memref sig .tc .vmem S1024x1 .f32) (h4 : a4.IsWhole) (a5 : Memref sig .tc .vmem S1x1024 .f32) (h5 : a5.IsWhole) (a6 : Memref sig .tc .vmem S1x1 .f32) (h6 : a6.IsWhole) (a7 : Memref sig .tc .vmem S1024x256 .f32) (h7 : a7.IsWhole) (a8 : Memref sig .tc .vmem S1024x256 .f32) (h8 : a8.IsWhole) (a9 : Memref sig .tc .vmem S1024x256 .f32) (h9 : a9.IsWhole) (a10 : Memref sig .tc .vmem S1024x1 .f32) (h10 : a10.IsWhole) (hc0 : cond0_0 i) (hc1 : ¬cond0_1 i) (x0 : Vec F S1024x256 .f32) (x1 : Vec F S1024x256 .f32) (x2 : Vec F S1024x1 .f32) (x3 : Vec F S1x1024 .f32) (x4 : Vec F S1x1 .f32) :
    sout0_A_0 c i a2 h2 a3 h3 a4 h4 a5 h5 a6 h6 a7 h7 a8 h8 a9 h9 a10 h10 hc0 hc1 x0 x1 x2 x3 x4 = k0_pay1 (k0_pay12 x0 x1 x2 x3 k0_pay4) := by
  unfold sout0_A_0
  rw [View.read_writes_eq_canon _ _ _ (scover0_A_0 c i a2 h2 a3 h3 a4 h4 a5 h5 a6 h6 a7 h7 a8 h8 a9 h9 a10 h10 hc0 hc1 x0 x1 x2 x3 x4)]
  unfold kernelRun0_A
  dsimp only
  sl_unfold_words
  rw [View.canon_cons_unit_zero (S := S1024x256) hz, View.readCov_unit_zero (S := S1024x256) _ hz]
  simp only [View.readAt_eq_ld, h2.read_unread, h3.read_unread, h4.read_unread, h5.read_unread, h6.read_unread, h7.read_unread, h8.read_unread, h9.read_unread, h10.read_unread, View.ld_unit_zero (S := S1024x256) hz, View.ld_unit_zero (S := S1024x1) hz, View.ld_unit_zero (S := S1x1024) hz, View.ld_unit_zero (S := S1x1) hz, View.readCov_unit_zero (S := S1024x256) _ hz, View.readCov_unit_zero (S := S1024x1) _ hz]

/-- … the second-moment scratch likewise, -/
theorem first_mom2 (c : Dev nD) (i : grid0.Coords) (a2 : Memref sig .tc .vmem S1024x256 .f32) (h2 : a2.IsWhole) (a3 : Memref sig .tc .vmem S1024x256 .f32) (h3 : a3.IsWhole) (a4 : Memref sig .tc .vmem S1024x1 .f32) (h4 : a4.IsWhole) (a5 : Memref sig .tc .vmem S1x1024 .f32) (h5 : a5.IsWhole) (a6 : Memref sig .tc .vmem S1x1 .f32) (h6 : a6.IsWhole) (a7 : Memref sig .tc .vmem S1024x256 .f32) (h7 : a7.IsWhole) (a8 : Memref sig .tc .vmem S1024x256 .f32) (h8 : a8.IsWhole) (a9 : Memref sig .tc .vmem S1024x256 .f32) (h9 : a9.IsWhole) (a10 : Memref sig .tc .vmem S1024x1 .f32) (h10 : a10.IsWhole) (hc0 : cond0_0 i) (hc1 : ¬cond0_1 i) (x0 : Vec F S1024x256 .f32) (x1 : Vec F S1024x256 .f32) (x2 : Vec F S1024x1 .f32) (x3 : Vec F S1x1024 .f32) (x4 : Vec F S1x1 .f32) :
    sout0_A_1 c i a2 h2 a3 h3 a4 h4 a5 h5 a6 h6 a7 h7 a8 h8 a9 h9 a10 h10 hc0 hc1 x0 x1 x2 x3 x4 = k0_pay2 (k0_pay10 x0 x1 x2 x3) (k0_pay11 x1) k0_pay5 := by
  unfold sout0_A_1
  rw [View.read_writes_eq_canon _ _ _ (scover0_A_1 c i a2 h2 a3 h3 a4 h4 a5 h5 a6 h6 a7 h7 a8 h8 a9 h9 a10 h10 hc0 hc1 x0 x1 x2 x3 x4)]
  unfold kernelRun0_A
  dsimp only
  sl_unfold_words
  rw [View.canon_cons_unit_zero (S := S1024x256) hz, View.readCov_unit_zero (S := S1024x256) _ hz]
  simp only [View.readAt_eq_ld, h2.read_unread, h3.read_unread, h4.read_unread, h5.read_unread, h6.read_unread, h7.read_unread, h8.read_unread, h9.read_unread, h10.read_unread, View.ld_unit_zero (S := S1024x256) hz, View.ld_unit_zero (S := S1024x1) hz, View.ld_unit_zero (S := S1x1024) hz, View.ld_unit_zero (S := S1x1) hz, View.readCov_unit_zero (S := S1024x256) _ hz, View.readCov_unit_zero (S := S1024x1) _ hz]

/-- … and the weight-sum scratch. -/
theorem first_wsum (c : Dev nD) (i : grid0.Coords) (a2 : Memref sig .tc .vmem S1024x256 .f32) (h2 : a2.IsWhole) (a3 : Memref sig .tc .vmem S1024x256 .f32) (h3 : a3.IsWhole) (a4 : Memref sig .tc .vmem S1024x1 .f32) (h4 : a4.IsWhole) (a5 : Memref sig .tc .vmem S1x1024 .f32) (h5 : a5.IsWhole) (a6 : Memref sig .tc .vmem S1x1 .f32) (h6 : a6.IsWhole) (a7 : Memref sig .tc .vmem S1024x256 .f32) (h7 : a7.IsWhole) (a8 : Memref sig .tc .vmem S1024x256 .f32) (h8 : a8.IsWhole) (a9 : Memref sig .tc .vmem S1024x256 .f32) (h9 : a9.IsWhole) (a10 : Memref sig .tc .vmem S1024x1 .f32) (h10 : a10.IsWhole) (hc0 : cond0_0 i) (hc1 : ¬cond0_1 i) (x0 : Vec F S1024x256 .f32) (x1 : Vec F S1024x256 .f32) (x2 : Vec F S1024x1 .f32) (x3 : Vec F S1x1024 .f32) (x4 : Vec F S1x1 .f32) :
    sout0_A_2 c i a2 h2 a3 h3 a4 h4 a5 h5 a6 h6 a7 h7 a8 h8 a9 h9 a10 h10 hc0 hc1 x0 x1 x2 x3 x4 = k0_pay9 x0 x1 x2 x3 k0_pay6 := by
  unfold sout0_A_2
  rw [View.read_writes_eq_canon _ _ _ (scover0_A_2 c i a2 h2 a3 h3 a4 h4 a5 h5 a6 h6 a7 h7 a8 h8 a9 h9 a10 h10 hc0 hc1 x0 x1 x2 x3 x4)]
  unfold kernelRun0_A
  dsimp only
  sl_unfold_words
  rw [View.canon_cons_unit_zero (S := S1024x1) hz, View.readCov_unit_zero (S := S1024x1) _ hz]
  simp only [View.readAt_eq_ld, h2.read_unread, h3.read_unread, h4.read_unread, h5.read_unread, h6.read_unread, h7.read_unread, h8.read_unread, h9.read_unread, h10.read_unread, View.ld_unit_zero (S := S1024x256) hz, View.ld_unit_zero (S := S1024x1) hz, View.ld_unit_zero (S := S1x1024) hz, View.ld_unit_zero (S := S1x1) hz, View.readCov_unit_zero (S := S1024x256) _ hz, View.readCov_unit_zero (S := S1024x1) _ hz]

/-- A middle point: each scratch is what the point before left plus this block's term. -/
theorem mid_mom1 (c : Dev nD) (i : grid0.Coords) (a2 : Memref sig .tc .vmem S1024x256 .f32) (h2 : a2.IsWhole) (a3 : Memref sig .tc .vmem S1024x256 .f32) (h3 : a3.IsWhole) (a4 : Memref sig .tc .vmem S1024x1 .f32) (h4 : a4.IsWhole) (a5 : Memref sig .tc .vmem S1x1024 .f32) (h5 : a5.IsWhole) (a6 : Memref sig .tc .vmem S1x1 .f32) (h6 : a6.IsWhole) (a7 : Memref sig .tc .vmem S1024x256 .f32) (h7 : a7.IsWhole) (a8 : Memref sig .tc .vmem S1024x256 .f32) (h8 : a8.IsWhole) (a9 : Memref sig .tc .vmem S1024x256 .f32) (h9 : a9.IsWhole) (a10 : Memref sig .tc .vmem S1024x1 .f32) (h10 : a10.IsWhole) (hc0 : ¬cond0_0 i) (hc1 : ¬cond0_1 i) (x0 : Vec F S1024x256 .f32) (x1 : Vec F S1024x256 .f32) (x2 : Vec F S1024x1 .f32) (x3 : Vec F S1x1024 .f32) (x4 : Vec F S1x1 .f32) (xs0 : Vec F S1024x256 .f32) (xs1 : Vec F S1024x256 .f32) (xs2 : Vec F S1024x1 .f32) :
    sout0_B_0 c i a2 h2 a3 h3 a4 h4 a5 h5 a6 h6 a7 h7 a8 h8 a9 h9 a10 h10 hc0 hc1 x0 x1 x2 x3 x4 xs0 xs1 xs2 = k0_pay1 (k0_pay12 x0 x1 x2 x3 xs0) := by
  unfold sout0_B_0
  rw [View.read_writes_eq_canon _ _ _ (scover0_B_0 c i a2 h2 a3 h3 a4 h4 a5 h5 a6 h6 a7 h7 a8 h8 a9 h9 a10 h10 hc0 hc1 x0 x1 x2 x3 x4 xs0 xs1 xs2)]
  unfold kernelRun0_B
  dsimp only
  sl_unfold_words
  rw [View.canon_unit_zero hz]
  simp only [View.readAt_eq_ld, h2.read_unread, h3.read_unread, h4.read_unread, h5.read_unread, h6.read_unread, h7.read_unread, h8.read_unread, h9.read_unread, h10.read_unread, View.ld_unit_zero (S := S1024x256) hz, View.ld_unit_zero (S := S1024x1) hz, View.ld_unit_zero (S := S1x1024) hz, View.ld_unit_zero (S := S1x1) hz, View.readCov_unit_zero (S := S1024x256) _ hz, View.readCov_unit_zero (S := S1024x1) _ hz]

theorem mid_mom2 (c : Dev nD) (i : grid0.Coords) (a2 : Memref sig .tc .vmem S1024x256 .f32) (h2 : a2.IsWhole) (a3 : Memref sig .tc .vmem S1024x256 .f32) (h3 : a3.IsWhole) (a4 : Memref sig .tc .vmem S1024x1 .f32) (h4 : a4.IsWhole) (a5 : Memref sig .tc .vmem S1x1024 .f32) (h5 : a5.IsWhole) (a6 : Memref sig .tc .vmem S1x1 .f32) (h6 : a6.IsWhole) (a7 : Memref sig .tc .vmem S1024x256 .f32) (h7 : a7.IsWhole) (a8 : Memref sig .tc .vmem S1024x256 .f32) (h8 : a8.IsWhole) (a9 : Memref sig .tc .vmem S1024x256 .f32) (h9 : a9.IsWhole) (a10 : Memref sig .tc .vmem S1024x1 .f32) (h10 : a10.IsWhole) (hc0 : ¬cond0_0 i) (hc1 : ¬cond0_1 i) (x0 : Vec F S1024x256 .f32) (x1 : Vec F S1024x256 .f32) (x2 : Vec F S1024x1 .f32) (x3 : Vec F S1x1024 .f32) (x4 : Vec F S1x1 .f32) (xs0 : Vec F S1024x256 .f32) (xs1 : Vec F S1024x256 .f32) (xs2 : Vec F S1024x1 .f32) :
    sout0_B_1 c i a2 h2 a3 h3 a4 h4 a5 h5 a6 h6 a7 h7 a8 h8 a9 h9 a10 h10 hc0 hc1 x0 x1 x2 x3 x4 xs0 xs1 xs2 = k0_pay2 (k0_pay10 x0 x1 x2 x3) (k0_pay11 x1) xs1 := by
  unfold sout0_B_1
  rw [View.read_writes_eq_canon _ _ _ (scover0_B_1 c i a2 h2 a3 h3 a4 h4 a5 h5 a6 h6 a7 h7 a8 h8 a9 h9 a10 h10 hc0 hc1 x0 x1 x2 x3 x4 xs0 xs1 xs2)]
  unfold kernelRun0_B
  dsimp only
  sl_unfold_words
  rw [View.canon_unit_zero hz]
  simp only [View.readAt_eq_ld, h2.read_unread, h3.read_unread, h4.read_unread, h5.read_unread, h6.read_unread, h7.read_unread, h8.read_unread, h9.read_unread, h10.read_unread, View.ld_unit_zero (S := S1024x256) hz, View.ld_unit_zero (S := S1024x1) hz, View.ld_unit_zero (S := S1x1024) hz, View.ld_unit_zero (S := S1x1) hz, View.readCov_unit_zero (S := S1024x256) _ hz, View.readCov_unit_zero (S := S1024x1) _ hz]

theorem mid_wsum (c : Dev nD) (i : grid0.Coords) (a2 : Memref sig .tc .vmem S1024x256 .f32) (h2 : a2.IsWhole) (a3 : Memref sig .tc .vmem S1024x256 .f32) (h3 : a3.IsWhole) (a4 : Memref sig .tc .vmem S1024x1 .f32) (h4 : a4.IsWhole) (a5 : Memref sig .tc .vmem S1x1024 .f32) (h5 : a5.IsWhole) (a6 : Memref sig .tc .vmem S1x1 .f32) (h6 : a6.IsWhole) (a7 : Memref sig .tc .vmem S1024x256 .f32) (h7 : a7.IsWhole) (a8 : Memref sig .tc .vmem S1024x256 .f32) (h8 : a8.IsWhole) (a9 : Memref sig .tc .vmem S1024x256 .f32) (h9 : a9.IsWhole) (a10 : Memref sig .tc .vmem S1024x1 .f32) (h10 : a10.IsWhole) (hc0 : ¬cond0_0 i) (hc1 : ¬cond0_1 i) (x0 : Vec F S1024x256 .f32) (x1 : Vec F S1024x256 .f32) (x2 : Vec F S1024x1 .f32) (x3 : Vec F S1x1024 .f32) (x4 : Vec F S1x1 .f32) (xs0 : Vec F S1024x256 .f32) (xs1 : Vec F S1024x256 .f32) (xs2 : Vec F S1024x1 .f32) :
    sout0_B_2 c i a2 h2 a3 h3 a4 h4 a5 h5 a6 h6 a7 h7 a8 h8 a9 h9 a10 h10 hc0 hc1 x0 x1 x2 x3 x4 xs0 xs1 xs2 = k0_pay9 x0 x1 x2 x3 xs2 := by
  unfold sout0_B_2
  rw [View.read_writes_eq_canon _ _ _ (scover0_B_2 c i a2 h2 a3 h3 a4 h4 a5 h5 a6 h6 a7 h7 a8 h8 a9 h9 a10 h10 hc0 hc1 x0 x1 x2 x3 x4 xs0 xs1 xs2)]
  unfold kernelRun0_B
  dsimp only
  sl_unfold_words
  rw [View.canon_unit_zero hz]
  simp only [View.readAt_eq_ld, h2.read_unread, h3.read_unread, h4.read_unread, h5.read_unread, h6.read_unread, h7.read_unread, h8.read_unread, h9.read_unread, h10.read_unread, View.ld_unit_zero (S := S1024x256) hz, View.ld_unit_zero (S := S1024x1) hz, View.ld_unit_zero (S := S1x1024) hz, View.ld_unit_zero (S := S1x1) hz, View.readCov_unit_zero (S := S1024x256) _ hz, View.readCov_unit_zero (S := S1024x1) _ hz]

/-- The last point of a row block of x accumulates in the same way, -/
theorem last_mom1 (c : Dev nD) (i : grid0.Coords) (a2 : Memref sig .tc .vmem S1024x256 .f32) (h2 : a2.IsWhole) (a3 : Memref sig .tc .vmem S1024x256 .f32) (h3 : a3.IsWhole) (a4 : Memref sig .tc .vmem S1024x1 .f32) (h4 : a4.IsWhole) (a5 : Memref sig .tc .vmem S1x1024 .f32) (h5 : a5.IsWhole) (a6 : Memref sig .tc .vmem S1x1 .f32) (h6 : a6.IsWhole) (a7 : Memref sig .tc .vmem S1024x256 .f32) (h7 : a7.IsWhole) (a8 : Memref sig .tc .vmem S1024x256 .f32) (h8 : a8.IsWhole) (a9 : Memref sig .tc .vmem S1024x256 .f32) (h9 : a9.IsWhole) (a10 : Memref sig .tc .vmem S1024x1 .f32) (h10 : a10.IsWhole) (hc0 : ¬cond0_0 i) (hc1 : cond0_1 i) (x0 : Vec F S1024x256 .f32) (x1 : Vec F S1024x256 .f32) (x2 : Vec F S1024x1 .f32) (x3 : Vec F S1x1024 .f32) (x4 : Vec F S1x1 .f32) (xs0 : Vec F S1024x256 .f32) (xs1 : Vec F S1024x256 .f32) (xs2 : Vec F S1024x1 .f32) :
    sout0_C_0 c i a2 h2 a3 h3 a4 h4 a5 h5 a6 h6 a7 h7 a8 h8 a9 h9 a10 h10 hc0 hc1 x0 x1 x2 x3 x4 xs0 xs1 xs2 = k0_pay1 (k0_pay12 x0 x1 x2 x3 xs0) := by
  unfold sout0_C_0
  rw [View.read_writes_eq_canon _ _ _ (scover0_C_0 c i a2 h2 a3 h3 a4 h4 a5 h5 a6 h6 a7 h7 a8 h8 a9 h9 a10 h10 hc0 hc1 x0 x1 x2 x3 x4 xs0 xs1 xs2)]
  unfold kernelRun0_C
  dsimp only
  sl_unfold_words
  rw [View.canon_unit_zero hz]
  simp only [View.readAt_eq_ld, h2.read_unread, h3.read_unread, h4.read_unread, h5.read_unread, h6.read_unread, h7.read_unread, h8.read_unread, h9.read_unread, h10.read_unread, View.ld_unit_zero (S := S1024x256) hz, View.ld_unit_zero (S := S1024x1) hz, View.ld_unit_zero (S := S1x1024) hz, View.ld_unit_zero (S := S1x1) hz, View.readCov_unit_zero (S := S1024x256) _ hz, View.readCov_unit_zero (S := S1024x1) _ hz]

theorem last_mom2 (c : Dev nD) (i : grid0.Coords) (a2 : Memref sig .tc .vmem S1024x256 .f32) (h2 : a2.IsWhole) (a3 : Memref sig .tc .vmem S1024x256 .f32) (h3 : a3.IsWhole) (a4 : Memref sig .tc .vmem S1024x1 .f32) (h4 : a4.IsWhole) (a5 : Memref sig .tc .vmem S1x1024 .f32) (h5 : a5.IsWhole) (a6 : Memref sig .tc .vmem S1x1 .f32) (h6 : a6.IsWhole) (a7 : Memref sig .tc .vmem S1024x256 .f32) (h7 : a7.IsWhole) (a8 : Memref sig .tc .vmem S1024x256 .f32) (h8 : a8.IsWhole) (a9 : Memref sig .tc .vmem S1024x256 .f32) (h9 : a9.IsWhole) (a10 : Memref sig .tc .vmem S1024x1 .f32) (h10 : a10.IsWhole) (hc0 : ¬cond0_0 i) (hc1 : cond0_1 i) (x0 : Vec F S1024x256 .f32) (x1 : Vec F S1024x256 .f32) (x2 : Vec F S1024x1 .f32) (x3 : Vec F S1x1024 .f32) (x4 : Vec F S1x1 .f32) (xs0 : Vec F S1024x256 .f32) (xs1 : Vec F S1024x256 .f32) (xs2 : Vec F S1024x1 .f32) :
    sout0_C_1 c i a2 h2 a3 h3 a4 h4 a5 h5 a6 h6 a7 h7 a8 h8 a9 h9 a10 h10 hc0 hc1 x0 x1 x2 x3 x4 xs0 xs1 xs2 = k0_pay2 (k0_pay10 x0 x1 x2 x3) (k0_pay11 x1) xs1 := by
  unfold sout0_C_1
  rw [View.read_writes_eq_canon _ _ _ (scover0_C_1 c i a2 h2 a3 h3 a4 h4 a5 h5 a6 h6 a7 h7 a8 h8 a9 h9 a10 h10 hc0 hc1 x0 x1 x2 x3 x4 xs0 xs1 xs2)]
  unfold kernelRun0_C
  dsimp only
  sl_unfold_words
  rw [View.canon_unit_zero hz]
  simp only [View.readAt_eq_ld, h2.read_unread, h3.read_unread, h4.read_unread, h5.read_unread, h6.read_unread, h7.read_unread, h8.read_unread, h9.read_unread, h10.read_unread, View.ld_unit_zero (S := S1024x256) hz, View.ld_unit_zero (S := S1024x1) hz, View.ld_unit_zero (S := S1x1024) hz, View.ld_unit_zero (S := S1x1) hz, View.readCov_unit_zero (S := S1024x256) _ hz, View.readCov_unit_zero (S := S1024x1) _ hz]

theorem last_wsum (c : Dev nD) (i : grid0.Coords) (a2 : Memref sig .tc .vmem S1024x256 .f32) (h2 : a2.IsWhole) (a3 : Memref sig .tc .vmem S1024x256 .f32) (h3 : a3.IsWhole) (a4 : Memref sig .tc .vmem S1024x1 .f32) (h4 : a4.IsWhole) (a5 : Memref sig .tc .vmem S1x1024 .f32) (h5 : a5.IsWhole) (a6 : Memref sig .tc .vmem S1x1 .f32) (h6 : a6.IsWhole) (a7 : Memref sig .tc .vmem S1024x256 .f32) (h7 : a7.IsWhole) (a8 : Memref sig .tc .vmem S1024x256 .f32) (h8 : a8.IsWhole) (a9 : Memref sig .tc .vmem S1024x256 .f32) (h9 : a9.IsWhole) (a10 : Memref sig .tc .vmem S1024x1 .f32) (h10 : a10.IsWhole) (hc0 : ¬cond0_0 i) (hc1 : cond0_1 i) (x0 : Vec F S1024x256 .f32) (x1 : Vec F S1024x256 .f32) (x2 : Vec F S1024x1 .f32) (x3 : Vec F S1x1024 .f32) (x4 : Vec F S1x1 .f32) (xs0 : Vec F S1024x256 .f32) (xs1 : Vec F S1024x256 .f32) (xs2 : Vec F S1024x1 .f32) :
    sout0_C_2 c i a2 h2 a3 h3 a4 h4 a5 h5 a6 h6 a7 h7 a8 h8 a9 h9 a10 h10 hc0 hc1 x0 x1 x2 x3 x4 xs0 xs1 xs2 = k0_pay9 x0 x1 x2 x3 xs2 := by
  unfold sout0_C_2
  rw [View.read_writes_eq_canon _ _ _ (scover0_C_2 c i a2 h2 a3 h3 a4 h4 a5 h5 a6 h6 a7 h7 a8 h8 a9 h9 a10 h10 hc0 hc1 x0 x1 x2 x3 x4 xs0 xs1 xs2)]
  unfold kernelRun0_C
  dsimp only
  sl_unfold_words
  rw [View.canon_unit_zero hz]
  simp only [View.readAt_eq_ld, h2.read_unread, h3.read_unread, h4.read_unread, h5.read_unread, h6.read_unread, h7.read_unread, h8.read_unread, h9.read_unread, h10.read_unread, View.ld_unit_zero (S := S1024x256) hz, View.ld_unit_zero (S := S1024x1) hz, View.ld_unit_zero (S := S1x1024) hz, View.ld_unit_zero (S := S1x1) hz, View.readCov_unit_zero (S := S1024x256) _ hz, View.readCov_unit_zero (S := S1024x1) _ hz]

/-- … and stores the closing formula of the three finished scratch values into the output block. -/
theorem last_out (c : Dev nD) (i : grid0.Coords) (a2 : Memref sig .tc .vmem S1024x256 .f32) (h2 : a2.IsWhole) (a3 : Memref sig .tc .vmem S1024x256 .f32) (h3 : a3.IsWhole) (a4 : Memref sig .tc .vmem S1024x1 .f32) (h4 : a4.IsWhole) (a5 : Memref sig .tc .vmem S1x1024 .f32) (h5 : a5.IsWhole) (a6 : Memref sig .tc .vmem S1x1 .f32) (h6 : a6.IsWhole) (a7 : Memref sig .tc .vmem S1024x256 .f32) (h7 : a7.IsWhole) (a8 : Memref sig .tc .vmem S1024x256 .f32) (h8 : a8.IsWhole) (a9 : Memref sig .tc .vmem S1024x256 .f32) (h9 : a9.IsWhole) (a10 : Memref sig .tc .vmem S1024x1 .f32) (h10 : a10.IsWhole) (hc0 : ¬cond0_0 i) (hc1 : cond0_1 i) (x0 : Vec F S1024x256 .f32) (x1 : Vec F S1024x256 .f32) (x2 : Vec F S1024x1 .f32) (x3 : Vec F S1x1024 .f32) (x4 : Vec F S1x1 .f32) (xs0 : Vec F S1024x256 .f32) (xs1 : Vec F S1024x256 .f32) (xs2 : Vec F S1024x1 .f32) :
    out0_C_5 c i a2 h2 a3 h3 a4 h4 a5 h5 a6 h6 a7 h7 a8 h8 a9 h9 a10 h10 hc0 hc1 x0 x1 x2 x3 x4 xs0 xs1 xs2 = k0_pay3 x0 (k0_pay2 (k0_pay10 x0 x1 x2 x3) (k0_pay11 x1) xs1) (k0_pay1 (k0_pay12 x0 x1 x2 x3 xs0)) (k0_pay9 x0 x1 x2 x3 xs2) x4 := by
  unfold out0_C_5
  rw [View.read_writes_eq_canon _ _ _ (cover0_C_5 c i a2 h2 a3 h3 a4 h4 a5 h5 a6 h6 a7 h7 a8 h8 a9 h9 a10 h10 hc0 hc1 x0 x1 x2 x3 x4 xs0 xs1 xs2)]
  unfold kernelRun0_C
  dsimp only
  sl_unfold_words
  rw [View.canon_unit_zero hz]
  simp only [View.readAt_eq_ld, h2.read_unread, h3.read_unread, h4.read_unread, h5.read_unread, h6.read_unread, h7.read_unread, h8.read_unread, h9.read_unread, h10.read_unread, View.ld_unit_zero (S := S1024x256) hz, View.ld_unit_zero (S := S1024x1) hz, View.ld_unit_zero (S := S1x1024) hz, View.ld_unit_zero (S := S1x1) hz, View.readCov_unit_zero (S := S1024x256) _ hz, View.readCov_unit_zero (S := S1024x1) _ hz]

end Cert.KernelIdeal.Piece

end
-- ==== Proof.Payloads.lean ====
/-
  The kernel body's arithmetic, read at an index, at the ideal instance.
-/
import proofs.«131439_j42932493090900_1_alg».proof.Proof.Gen.KernelIdeal.Skeleton
import proofs.«131439_j42932493090900_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.GaussMoment

/-! ## Layout operations read at an index -/

section Layout
variable {α : Type}

/-- An `[a]` array cast to `[a, 1]` reads, at `(i, u)`, the operand at `i`: position `i · 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` array broadcast to `[a, b]` reads, at `(p, c)`, the operand's row `p` at its one column. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- A `[1, 1]` array broadcast to `[a, b]` reads its one entry everywhere. -/
theorem broadcastTo_11_ab_apply {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ =>
    show 0 = if (1 : ℕ) = 1 then 0 else p.val
    rw [if_pos rfl]
  | ⟨1, _⟩ =>
    show 0 = if (1 : ℕ) = 1 then 0 else c.val
    rw [if_pos rfl]

end Layout

/-! ## The lane sum -/

/-- The sum over the second axis of a [1024, 1024] array, at row `p`, is the sum of that row's entries. -/
theorem laneSum_apply (src : FVec Ideal S1024x1024 .f32) (h : S1024x1024.Reduces [1] S1024)
    (hφ : FKind.Formats .f32) (hacc : (0x00000000#32 : BitVec (FTy.bits .f32)) = FKind.add.neutral .f32 hφ) (p : Fin 1024) :
    multiReduction (F := Ideal) .add [1] S1024 src 0x00000000#32 h hφ hacc (ix1 p) = ∑ k : Fin 1024, src (ix2 p k) := by
  refine (Ideal.multiReduction_add_single src 0x00000000#32 h hφ hacc (ix1 p)).trans ?_
  refine Finset.sum_congr rfl fun k _ => congrArg src ?_
  funext a
  apply Fin.ext
  match a with
  | ⟨0, _⟩ => rfl
  | ⟨1, _⟩ => rfl

/-! ## The two products -/

theorem lhs_A_0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
theorem lhs_A_1 (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q
theorem rhs_A_0 (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q
theorem rhs_A_1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- The [1024, 256] × [256, 1024] product into zero, at `(p, k)`: the sum over the 256 shared coordinates. -/
theorem matmulA_apply (lhs : FVec Ideal S1024x256 .bf16) (rhs : FVec Ideal S256x1024 .bf16) (p k : Fin 1024) :
    matmul dot_S1024x256_S256x1024_S1024x1024_1_0_0_1_n_n none lhs rhs (constant (F := Ideal) S1024x1024 .f32 0x00000000#32) (ix2 p k)
      = ∑ d : Fin 256, lhs (ix2 p d) * rhs (ix2 d k) := by
  simp only [matmul]
  rw [Ideal.matmul_constant_zero_apply, ← Equiv.sum_comp (ValueIdx.contrEquiv1 dot_S1024x256_S256x1024_S1024x1024_1_0_0_1_n_n 256 rfl rfl).symm]
  refine Finset.sum_congr rfl fun d _ => ?_
  have hk := ValueIdx.contrEquiv1_symm_val dot_S1024x256_S256x1024_S1024x1024_1_0_0_1_n_n 256 rfl rfl d
  have el : dot_S1024x256_S256x1024_S1024x1024_1_0_0_1_n_n.lhsIdx (ix2 p k) ((ValueIdx.contrEquiv1 dot_S1024x256_S256x1024_S1024x1024_1_0_0_1_n_n 256 rfl rfl).symm d) = ix2 p d := funext fun a => Fin.ext (by
    match a with
    | ⟨0, _⟩ => exact lhs_A_0 _ _
    | ⟨1, _⟩ => exact (lhs_A_1 _ _).trans hk)
  have er : dot_S1024x256_S256x1024_S1024x1024_1_0_0_1_n_n.rhsIdx (ix2 p k) ((ValueIdx.contrEquiv1 dot_S1024x256_S256x1024_S1024x1024_1_0_0_1_n_n 256 rfl rfl).symm d) = ix2 d k := funext fun a => Fin.ext (by
    match a with
    | ⟨0, _⟩ => exact (rhs_A_0 _ _).trans hk
    | ⟨1, _⟩ => exact rhs_A_1 _ _)
  rw [el, er]

theorem lhs_B_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem lhs_B_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
theorem rhs_B_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
theorem rhs_B_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- The [1024, 1024] × [1024, 256] product into zero, at `(p, d)`: the sum over the 1024 shared coordinates. -/
theorem matmulB_apply (lhs : FVec Ideal S1024x1024 .bf16) (rhs : FVec Ideal S1024x256 .bf16) (p : Fin 1024) (d : Fin 256) :
    matmul dot_S1024x1024_S1024x256_S1024x256_1_0_0_1_n_n none lhs rhs (constant (F := Ideal) S1024x256 .f32 0x00000000#32) (ix2 p d)
      = ∑ k : Fin 1024, lhs (ix2 p k) * rhs (ix2 k d) := by
  simp only [matmul]
  rw [Ideal.matmul_constant_zero_apply, ← Equiv.sum_comp (ValueIdx.contrEquiv1 dot_S1024x1024_S1024x256_S1024x256_1_0_0_1_n_n 1024 rfl rfl).symm]
  refine Finset.sum_congr rfl fun k _ => ?_
  have hk := ValueIdx.contrEquiv1_symm_val dot_S1024x1024_S1024x256_S1024x256_1_0_0_1_n_n 1024 rfl rfl k
  have el : dot_S1024x1024_S1024x256_S1024x256_1_0_0_1_n_n.lhsIdx (ix2 p d) ((ValueIdx.contrEquiv1 dot_S1024x1024_S1024x256_S1024x256_1_0_0_1_n_n 1024 rfl rfl).symm k) = ix2 p k := funext fun a => Fin.ext (by
    match a with
    | ⟨0, _⟩ => exact lhs_B_0 _ _
    | ⟨1, _⟩ => exact (lhs_B_1 _ _).trans hk)
  have er : dot_S1024x1024_S1024x256_S1024x256_1_0_0_1_n_n.rhsIdx (ix2 p d) ((ValueIdx.contrEquiv1 dot_S1024x1024_S1024x256_S1024x256_1_0_0_1_n_n 1024 rfl rfl).symm k) = ix2 k d := funext fun a => Fin.ext (by
    match a with
    | ⟨0, _⟩ => exact (rhs_B_0 _ _).trans hk
    | ⟨1, _⟩ => exact rhs_B_1 _ _)
  rw [el, er]

/-! ## The payloads -/

/-- The weight block at (p, k). -/
theorem pay8_apply (x0 x1 : Vec Ideal S1024x256 .f32) (x2 : Vec Ideal S1024x1 .f32) (x3 : Vec Ideal S1x1024 .f32)
    (p k : Fin 1024) :
    k0_pay8 (F := Ideal) x0 x1 x2 x3 (ix2 p k)
      = Ideal.exp (((x2 (ix2 p (0 : Fin 1)) + x3 (ix2 (0 : Fin 1) k)) - two * ∑ d : Fin 256, x0 (ix2 p d) * x1 (ix2 k d)) * scale) := by
  have e1 : broadcastTo S1024x1024 (shapeCast S1024x1 x2 shapeCasts_S1024x1_S1024x1) broadcasts_S1024x1_S1024x1024 (ix2 p k)
      = x2 (ix2 p (0 : Fin 1)) := by
    rw [shapeCast_self]
    exact broadcastTo_a1_ab_apply x2 _ p k
  have e2 : broadcastTo S1024x1024 (shapeCast S1x1024 x3 shapeCasts_S1x1024_S1x1024) broadcasts_S1x1024_S1024x1024 (ix2 p k)
      = x3 (ix2 (0 : Fin 1) k) := by
    rw [shapeCast_self]
    exact broadcastTo_1b_ab_apply x3 _ p k
  have e3 : matmul dot_S1024x256_S256x1024_S1024x1024_1_0_0_1_n_n none
        (truncf .bf16 (x0 : FVec Ideal S1024x256 .f32) bitsLt_bf16_f32 : FVec Ideal S1024x256 .bf16)
        (transpose S256x1024 [1, 0] (truncf .bf16 (x1 : FVec Ideal S1024x256 .f32) bitsLt_bf16_f32 : FVec Ideal S1024x256 .bf16)
          transposes_S1024x256_p1_0_S256x1024)
        (constant (F := Ideal) S1024x1024 .f32 0x00000000#32) (ix2 p k)
      = ∑ d : Fin 256, x0 (ix2 p d) * x1 (ix2 k d) := by
    refine (matmulA_apply _ _ p k).trans (Finset.sum_congr rfl fun d _ => ?_)
    rw [transpose_ix2_apply]
    rfl
  unfold k0_pay8 k0_pay7
  show Ideal.exp (((broadcastTo S1024x1024 (shapeCast S1024x1 x2 shapeCasts_S1024x1_S1024x1) broadcasts_S1024x1_S1024x1024 (ix2 p k)
      + broadcastTo S1024x1024 (shapeCast S1x1024 x3 shapeCasts_S1x1024_S1x1024) broadcasts_S1x1024_S1024x1024 (ix2 p k))
      - two * matmul dot_S1024x256_S256x1024_S1024x1024_1_0_0_1_n_n none
        (truncf .bf16 (x0 : FVec Ideal S1024x256 .f32) bitsLt_bf16_f32 : FVec Ideal S1024x256 .bf16)
        (transpose S256x1024 [1, 0] (truncf .bf16 (x1 : FVec Ideal S1024x256 .f32) bitsLt_bf16_f32 : FVec Ideal S1024x256 .bf16)
          transposes_S1024x256_p1_0_S256x1024)
        (constant (F := Ideal) S1024x1024 .f32 0x00000000#32) (ix2 p k)) * scale) = _
  rw [e1, e2, e3]

/-- The running row sum of the weights at (p, u). -/
theorem pay9_apply (x0 x1 : Vec Ideal S1024x256 .f32) (x2 : Vec Ideal S1024x1 .f32) (x3 : Vec Ideal S1x1024 .f32)
    (v22 : Vec Ideal S1024x1 .f32) (p : Fin 1024) (u : Fin 1) :
    k0_pay9 (F := Ideal) x0 x1 x2 x3 v22 (ix2 p u)
      = v22 (ix2 p u) + ∑ k : Fin 1024, k0_pay8 (F := Ideal) x0 x1 x2 x3 (ix2 p k) := by
  unfold k0_pay9
  generalize k0_pay8 (F := Ideal) x0 x1 x2 x3 = w
  rw [shapeCast_self]
  show v22 (ix2 p u) + shapeCast S1024x1 (multiReduction (F := Ideal) .add [1] S1024 w 0x00000000#32 reduces_S1024x1024_S1024 (.inl rfl) rfl)
      shapeCasts_S1024_S1024x1 (ix2 p u) = _
  rw [shapeCast_a_a1_apply]
  exact congrArg (v22 (ix2 p u) + ·) (laneSum_apply w _ _ _ p)

/-- The running first moment at (p, d). -/
theorem pay12_apply (x0 x1 : Vec Ideal S1024x256 .f32) (x2 : Vec Ideal S1024x1 .f32) (x3 : Vec Ideal S1x1024 .f32)
    (v32 : Vec Ideal S1024x256 .f32) (p : Fin 1024) (d : Fin 256) :
    k0_pay12 (F := Ideal) x0 x1 x2 x3 v32 (ix2 p d)
      = v32 (ix2 p d) + ∑ k : Fin 1024, k0_pay8 (F := Ideal) x0 x1 x2 x3 (ix2 p k) * x1 (ix2 k d) := by
  unfold k0_pay12 k0_pay10 k0_pay7
  generalize k0_pay8 (F := Ideal) x0 x1 x2 x3 = w
  show v32 (ix2 p d) + matmul dot_S1024x1024_S1024x256_S1024x256_1_0_0_1_n_n none
      (truncf .bf16 w bitsLt_bf16_f32 : FVec Ideal S1024x1024 .bf16)
      (truncf .bf16 (x1 : FVec Ideal S1024x256 .f32) bitsLt_bf16_f32 : FVec Ideal S1024x256 .bf16)
      (constant (F := Ideal) S1024x256 .f32 0x00000000#32) (ix2 p d) = _
  rw [matmulB_apply]
  rfl

/-- The running second moment at (p, d). -/
theorem pay2_apply (x0 x1 : Vec Ideal S1024x256 .f32) (x2 : Vec Ideal S1024x1 .f32) (x3 : Vec Ideal S1x1024 .f32)
    (v38 : Vec Ideal S1024x256 .f32) (p : Fin 1024) (d : Fin 256) :
    k0_pay2 (F := Ideal) (k0_pay10 (F := Ideal) x0 x1 x2 x3) (k0_pay11 (F := Ideal) x1) v38 (ix2 p d)
      = v38 (ix2 p d) + ∑ k : Fin 1024, k0_pay8 (F := Ideal) x0 x1 x2 x3 (ix2 p k) * (x1 (ix2 k d) * x1 (ix2 k d)) := by
  unfold k0_pay2 k0_pay10 k0_pay11
  generalize k0_pay8 (F := Ideal) x0 x1 x2 x3 = w
  rw [shapeCast_self]
  show v38 (ix2 p d) + matmul dot_S1024x1024_S1024x256_S1024x256_1_0_0_1_n_n none
      (truncf .bf16 w bitsLt_bf16_f32 : FVec Ideal S1024x1024 .bf16)
      (truncf .bf16 (mulf (x1 : FVec Ideal S1024x256 .f32) x1) bitsLt_bf16_f32 : FVec Ideal S1024x256 .bf16)
      (constant (F := Ideal) S1024x256 .f32 0x00000000#32) (ix2 p d) = _
  rw [matmulB_apply]
  rfl

/-- A shape cast to the same shape changes nothing. -/
theorem pay1_eq {F : FTy → Type} [FloatOps F] (v : FVec F S1024x256 .f32) : k0_pay1 (F := F) v = v := by
  unfold k0_pay1
  exact shapeCast_self v _

/-- The three reset values are zero everywhere. -/
theorem pay4_apply (i : S1024x256.Idx) : k0_pay4 (F := Ideal) i = 0 := by
  unfold k0_pay4
  rw [shapeCast_self]
  exact Ideal.ofBits_zero_f32
theorem pay5_apply (i : S1024x256.Idx) : k0_pay5 (F := Ideal) i = 0 := by
  unfold k0_pay5
  rw [shapeCast_self]
  exact Ideal.ofBits_zero_f32
theorem pay6_apply (i : S1024x1.Idx) : k0_pay6 (F := Ideal) i = 0 := by
  unfold k0_pay6
  rw [shapeCast_self]
  exact Ideal.ofBits_zero_f32

/-- The closing formula at (p, d). -/
theorem pay3_apply (v3 v47 v50 : Vec Ideal S1024x256 .f32) (v54 : Vec Ideal S1024x1 .f32) (v58 : Vec Ideal S1x1 .f32)
    (p : Fin 1024) (d : Fin 256) :
    k0_pay3 (F := Ideal) v3 v47 v50 v54 v58 (ix2 p d)
      = Ideal.div one (v58 (ix2 (0 : Fin 1) (0 : Fin 1)) * ((v47 (ix2 p d) - (two * v3 (ix2 p d)) * v50 (ix2 p d))
          + (v3 (ix2 p d) * v3 (ix2 p d)) * v54 (ix2 p (0 : Fin 1))) + eps) := by
  unfold k0_pay3
  show Ideal.div one (broadcastTo S1024x256 v58 broadcasts_S1x1_S1024x256 (ix2 p d) * ((v47 (ix2 p d) - (two * v3 (ix2 p d)) * v50 (ix2 p d))
          + (v3 (ix2 p d) * v3 (ix2 p d)) * broadcastTo S1024x256 v54 broadcasts_S1024x1_S1024x256 (ix2 p d)) + eps) = _
  rw [broadcastTo_11_ab_apply, broadcastTo_a1_ab_apply]

end Cert.KernelIdeal.Pay

end
-- ==== Proof.Blocks.lean ====
/-
  What the kernel's windows read at grid point t, at the ideal instance: each input block at an index, in terms of the
  argument arrays. The grid is 8 × 8, point t at coordinates (t / 8, t % 8); the x windows (0, 2) move with the first
  coordinate, the r windows (1, 3) with the second, the scalar's window (4) never.
-/
import proofs.«131439_j42932493090900_1_alg».proof.Proof.Gen.KernelIdeal.Frame
import proofs.«131439_j42932493090900_1_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.Blk

open Cert.KernelIdeal Cert.KernelIdeal.Gen Idealize.ShloMosaic Idealize.ShloMosaic.TcCoe Idealize.ShloMosaic.ValueIdx Idealize.SL.Sem
open Cert.GaussMoment

variable (m : (ℓ : Loc nD τ sig) → Buf (Elt Ideal) ℓ)

/-- The three argument arrays as launched. -/
abbrev X (c : Dev nD) : Mat := m ((c : Thread nD τ).loc main_arg0)
abbrev R (c : Dev nD) : Mat := m ((c : Thread nD τ).loc main_arg1)
abbrev W (c : Dev nD) : Scal := m ((c : Thread nD τ).loc main_arg2)

/-- The five input blocks at point t, each at its literal type. -/
abbrev xblk (c : Dev nD) (t : Fin cfg0.N) : Vec Ideal S1024x256 .f32 := iblk m c 0 t
abbrev rblk (c : Dev nD) (t : Fin cfg0.N) : Vec Ideal S1024x256 .f32 := iblk m c 1 t
abbrev xsqblk (c : Dev nD) (t : Fin cfg0.N) : Vec Ideal S1024x1 .f32 := iblk m c 2 t
abbrev rsqblk (c : Dev nD) (t : Fin cfg0.N) : Vec Ideal S1x1024 .f32 := iblk m c 3 t
abbrev wblk (c : Dev nD) (t : Fin cfg0.N) : Vec Ideal S1x1 .f32 := iblk m c 4 t

/-- The windows' block indices at point t, decided over the grid. -/
theorem idx_x : ∀ t : Fin cfg0.N, win0_0.index t 0 = t.val / 8 ∧ win0_0.index t 1 = 0 :=
  (by decide +kernel : ∀ t : Fin grid0.N, _)
theorem idx_r : ∀ t : Fin cfg0.N, win0_1.index t 0 = t.val % 8 ∧ win0_1.index t 1 = 0 :=
  (by decide +kernel : ∀ t : Fin grid0.N, _)
theorem idx_xsq : ∀ t : Fin cfg0.N, win0_2.index t 0 = t.val / 8 ∧ win0_2.index t 1 = 0 :=
  (by decide +kernel : ∀ t : Fin grid0.N, _)
theorem idx_rsq : ∀ t : Fin cfg0.N, win0_3.index t 0 = 0 ∧ win0_3.index t 1 = t.val % 8 :=
  (by decide +kernel : ∀ t : Fin grid0.N, _)
theorem idx_w : ∀ t : Fin cfg0.N, win0_4.index t 0 = 0 ∧ win0_4.index t 1 = 0 :=
  (by decide +kernel : ∀ t : Fin grid0.N, _)

/-- The number of grid points. -/
theorem t_lt (t : Fin cfg0.N) : t.val < 64 := t.isLt

/-- The value of a row index below 8192. -/
theorem rowOf_coe {n : ℕ} (h : n < 8192) : (rowOf n).val = n := Nat.mod_eq_of_lt h

/-- Row p of the x block at point t is row 1024·(t / 8) + p of x. -/
theorem xblk_apply (c : Dev nD) (t : Fin cfg0.N) (p : Fin 1024) (d : Fin 256) :
    xblk m c t (ix2 p d) = X m c (ix2 (rowOf (1024 * (t.val / 8) + p.val)) d) := by
  have ht := t_lt t
  have hp := p.isLt
  show iblk m c 0 t (ix2 p d) = _
  unfold iblk
  rw [View.read_apply]
  show V m c main_arg0 _ = m ((c : Thread nD τ).loc main_arg0) _
  rw [V_main_arg0]
  congr 1
  funext a
  apply Fin.ext
  match a with
  | ⟨0, _⟩ =>
    show win0_0.index t 0 * 1024 + 1 * p.val = (rowOf (1024 * (t.val / 8) + p.val)).val
    rw [(idx_x t).1, rowOf_coe (by omega)]; omega
  | ⟨1, _⟩ =>
    show win0_0.index t 1 * 256 + 1 * d.val = d.val
    rw [(idx_x t).2]; omega

/-- Row k of the r block at point t is row 1024·(t % 8) + k of r. -/
theorem rblk_apply (c : Dev nD) (t : Fin cfg0.N) (k : Fin 1024) (d : Fin 256) :
    rblk m c t (ix2 k d) = R m c (ix2 (rowOf (1024 * (t.val % 8) + k.val)) d) := by
  have ht := t_lt t
  have hk := k.isLt
  show iblk m c 1 t (ix2 k d) = _
  unfold iblk
  rw [View.read_apply]
  show V m c main_arg1 _ = m ((c : Thread nD τ).loc main_arg1) _
  rw [V_main_arg1]
  congr 1
  funext a
  apply Fin.ext
  match a with
  | ⟨0, _⟩ =>
    show win0_1.index t 0 * 1024 + 1 * k.val = (rowOf (1024 * (t.val % 8) + k.val)).val
    rw [(idx_r t).1, rowOf_coe (by omega)]; omega
  | ⟨1, _⟩ =>
    show win0_1.index t 1 * 256 + 1 * d.val = d.val
    rw [(idx_r t).2]; omega

/-- The host's row sums of squares of an array: the sum, from the initial value +0.0, along the second axis of its
    pointwise square. -/
abbrev hostSq (a : Mat) : S8192.Idx → EReal :=
  Host.reduceAdd (F := Ideal) (mulf (F := Ideal) (a : FVec Ideal S8192x256 .f32) a) (constant (F := Ideal) S_ .f32 0x00000000#32)
    Facts₀.reducesTo_S8192x256_S8192_d1 Facts₀.h_S_

/-- At row i it is the row's squared norm. -/
theorem hostSq_apply (a : Mat) (i : S8192.Idx) : hostSq a i = sqn a (i 0) := by
  unfold hostSq sqn
  simp only [Host.reduceAdd, Ideal.hostReduceAdd_def]
  rw [Ideal.hostReduceAdd_single Facts₀.reducesTo_S8192x256_S8192_d1 (by decide)]
  show Ideal.ofBits .f32 0x00000000#32 + _ = _
  rw [Ideal.ofBits_zero_f32, zero_add]
  refine Finset.sum_congr rfl fun k _ => ?_
  have e : (Shape.Reduces.lift (s := S8192x256) (t := S8192) (a := 1) (by decide) i k) = ix2 (i 0) k :=
    funext fun b => Fin.ext (by match b with | ⟨0, _⟩ => rfl | ⟨1, _⟩ => rfl)
  show a _ * a _ = _
  rw [e]
  rfl

/-- The [8192] vector as a column [8192, 1], read at an index. -/
theorem col_apply (v : S8192.Idx → EReal) (j : S8192x1.Idx) :
    broadcastInDim S8192x1 ![0] Facts₀.bcast_S8192_S8192x1_0 v j = v (ix1 (j 0)) := by
  refine broadcastInDim_apply _ _ v j (ix1 (j 0)) fun b => ?_
  match b with
  | ⟨0, _⟩ =>
    show (j 0).val = if (8192 : ℕ) = 1 then 0 else (j 0).val
    rw [if_neg (by decide)]

/-- The column [8192, 1] as a row [1, 8192], read at an index. -/
theorem row_apply (v : S8192x1.Idx → EReal) (j : S1x8192.Idx) :
    shapeCast S1x8192 v Facts₀.shapeCasts_S8192x1_S1x8192 j = v (ix2 (j 1) (0 : Fin 1)) := by
  refine shapeCast_apply v _ j _ ?_
  rw [Shape.rowMajor_val_two, Shape.rowMajor_val_two]
  have h0 : (j 0).val < 1 := (j 0).isLt
  show (j 1).val * 1 + 0 = (j 0).val * 8192 + (j 1).val
  omega

/-- The array the third window stages: the column of x's row sums of squares. -/
theorem xsq_arr (c : Dev nD) :
    (V m c main_v2 : S8192x1.Idx → EReal)
      = broadcastInDim S8192x1 ![0] Facts₀.bcast_S8192_S8192x1_0 (hostSq (X m c)) := by
  dsimp only [Gen.V, Gen.hostOps0]; after_results

/-- The array the fourth window stages: the row of r's row sums of squares. -/
theorem rsq_arr (c : Dev nD) :
    (V m c main_v6 : S1x8192.Idx → EReal)
      = shapeCast S1x8192 (broadcastInDim S8192x1 ![0] Facts₀.bcast_S8192_S8192x1_0 (hostSq (R m c)))
          Facts₀.shapeCasts_S8192x1_S1x8192 := by
  dsimp only [Gen.V, Gen.hostOps0]; after_results; rfl

/-- The staged column read at an index: the squared norm of that row of x. -/
theorem xsq_read (c : Dev nD) (j : S8192x1.Idx) :
    (V m c main_v2 : S8192x1.Idx → EReal) j = sqn (X m c) (j 0) := by
  rw [xsq_arr, col_apply, hostSq_apply]

/-- The staged row read at an index: the squared norm of that row of r. -/
theorem rsq_read (c : Dev nD) (j : S1x8192.Idx) :
    (V m c main_v6 : S1x8192.Idx → EReal) j = sqn (R m c) (j 1) := by
  rw [rsq_arr, row_apply, col_apply, hostSq_apply]

/-- The squared-norm column of x, computed by the host before the call, at row p of its block at point t. -/
theorem xsqblk_apply (c : Dev nD) (t : Fin cfg0.N) (p : Fin 1024) (u : Fin 1) :
    xsqblk m c t (ix2 p u) = sqn (X m c) (rowOf (1024 * (t.val / 8) + p.val)) := by
  have ht := t_lt t
  have hp := p.isLt
  show iblk m c 2 t (ix2 p u) = _
  unfold iblk
  rw [View.read_apply]
  refine (xsq_read m c _).trans (congrArg _ (Fin.ext ?_))
  show win0_2.index t 0 * 1024 + 1 * p.val = (rowOf (1024 * (t.val / 8) + p.val)).val
  rw [(idx_xsq t).1, rowOf_coe (by omega)]; omega

/-- The squared-norm row of r, computed by the host before the call, at column k of its block at point t. -/
theorem rsqblk_apply (c : Dev nD) (t : Fin cfg0.N) (u : Fin 1) (k : Fin 1024) :
    rsqblk m c t (ix2 u k) = sqn (R m c) (rowOf (1024 * (t.val % 8) + k.val)) := by
  have ht := t_lt t
  have hk := k.isLt
  show iblk m c 3 t (ix2 u k) = _
  unfold iblk
  rw [View.read_apply]
  refine (rsq_read m c _).trans (congrArg _ (Fin.ext ?_))
  show win0_3.index t 1 * 1024 + 1 * k.val = (rowOf (1024 * (t.val % 8) + k.val)).val
  rw [(idx_rsq t).2, rowOf_coe (by omega)]; omega

/-- The scalar's block is the scalar. -/
theorem wblk_apply (c : Dev nD) (t : Fin cfg0.N) (u v : Fin 1) :
    wblk m c t (ix2 u v) = W m c (ix2 (0 : Fin 1) (0 : Fin 1)) := by
  show iblk m c 4 t (ix2 u v) = _
  unfold iblk
  rw [View.read_apply]
  show V m c main_arg2 _ = m ((c : Thread nD τ).loc main_arg2) _
  rw [V_main_arg2]
  congr 1
  funext a
  apply Fin.ext
  match a with
  | ⟨0, _⟩ =>
    show win0_4.index t 0 * 1 + 1 * u.val = 0
    rw [(idx_w t).1]; omega
  | ⟨1, _⟩ =>
    show win0_4.index t 1 * 1 + 1 * v.val = 0
    rw [(idx_w t).2]; omega

end Cert.KernelIdeal.Blk

end
-- ==== Proof.Accum.lean ====
/-
  The three accumulators after every grid point, by induction along the grid.

  Point t of the 8 × 8 grid works on row block t / 8 of x and row block t % 8 of r. Along a row block of x the kernel
  keeps, for each of its 1024 rows b and each column d, the first moment ∑_n wt b n · r[n,d], the second moment
  ∑_n wt b n · r[n,d]² and the weight sum ∑_n wt b n, over the rows n of r seen so far. After point t these are the
  sums over the first 1024 · (t % 8) + 1024 rows: the point's own 1024 rows join the rows taken before, and at a row
  block's first point the sums start from zero.
-/
import proofs.«131439_j42932493090900_1_alg».proof.Proof.Gen.KernelIdeal.Frame
import proofs.«131439_j42932493090900_1_alg».proof.Proof.Spec
import proofs.«131439_j42932493090900_1_alg».proof.Proof.Pieces
import proofs.«131439_j42932493090900_1_alg».proof.Proof.Payloads
import proofs.«131439_j42932493090900_1_alg».proof.Proof.Blocks

noncomputable section

namespace Cert.KernelIdeal.Acc

open Cert.KernelIdeal Cert.KernelIdeal.Gen Idealize.ShloMosaic Idealize.ShloMosaic.TcCoe Idealize.ShloMosaic.ValueIdx Idealize.SL.Sem
open Cert.GaussMoment Cert.KernelIdeal.Blk Cert.KernelIdeal.Pay Cert.KernelIdeal.Piece

variable (m : (ℓ : Loc nD τ sig) → Buf (Elt Ideal) ℓ)

/-- A value that is the sum over the first 1024·j rows, plus the next 1024 rows' terms, is the sum over the first
    1024·j + 1024 rows. -/
theorem upTo_step (f : Fin 8192 → EReal) (j : ℕ) (acc : EReal) (hacc : acc = upTo f (1024 * j)) :
    acc + ∑ k : Fin 1024, f (rowOf (1024 * j + k.val)) = upTo f (1024 * j + 1024) := by
  rw [hacc, upTo_add_block]

/-- The weight the body computes at (p, k) of point t's blocks is the weight of row 1024·(t / 8) + p of x and row
    1024·(t % 8) + k of r: the staged squared norms are the rows' squared norms, the matrix product the rows' inner
    product. -/
theorem weights_apply (c : Dev nD) (t : Fin cfg0.N) (p k : Fin 1024) :
    k0_pay8 (F := Ideal) (xblk m c t) (rblk m c t) (xsqblk m c t) (rsqblk m c t) (ix2 p k)
      = wt (X m c) (R m c) (rowOf (1024 * (t.val / 8) + p.val)) (rowOf (1024 * (t.val % 8) + k.val)) := by
  rw [pay8_apply, xsqblk_apply, rsqblk_apply]
  unfold wt cross
  simp only [xblk_apply, rblk_apply]

/-- One point's term joins the rows taken so far: mom1. -/
theorem mom1_new (c : Dev nD) (t : Fin cfg0.N) (p : Fin 1024) (d : Fin 256) (acc : Vec Ideal S1024x256 .f32)
    (hacc : acc (ix2 p d) = mom1To (X m c) (R m c) (rowOf (1024 * (t.val / 8) + p.val)) d (1024 * (t.val % 8))) :
    k0_pay1 (F := Ideal) (k0_pay12 (F := Ideal) (xblk m c t) (rblk m c t) (xsqblk m c t) (rsqblk m c t) acc) (ix2 p d) = mom1To (X m c) (R m c) (rowOf (1024 * (t.val / 8) + p.val)) d (1024 * (t.val % 8) + 1024) := by
  rw [pay1_eq]
  refine (pay12_apply (xblk m c t) (rblk m c t) (xsqblk m c t) (rsqblk m c t) acc p d).trans ?_
  unfold mom1To
  simp only [weights_apply, rblk_apply]
  exact upTo_step (fun n => wt (X m c) (R m c) (rowOf (1024 * (t.val / 8) + p.val)) n * R m c (ix2 n d)) (t.val % 8) _ hacc

/-- The accumulator after point t, given it after the point before (when t is not a row block's first point). -/
theorem mom1_step (c : Dev nD) (t : Fin cfg0.N) (p : Fin 1024) (d : Fin 256)
    (ih : t.val % 8 ≠ 0 → (outsAt0 m c (t.val - 1) (Nat.lt_of_le_of_lt (Nat.sub_le _ _) t.isLt)).2.1 (ix2 p d)
        = mom1To (X m c) (R m c) (rowOf (1024 * ((t.val - 1) / 8) + p.val)) d (1024 * ((t.val - 1) % 8) + 1024)) :
    (outsAt0 m c t.val t.isLt).2.1 (ix2 p d) = mom1To (X m c) (R m c) (rowOf (1024 * (t.val / 8) + p.val)) d (1024 * (t.val % 8) + 1024) := by
  by_cases h0 : t.val % 8 = 0
  · have h1 : ¬t.val % 8 = 7 := by omega
    rw [outsAt0_A m c t h0 h1]
    dsimp only
    refine (congrFun (first_mom1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (xblk m c t) (rblk m c t) (xsqblk m c t) (rsqblk m c t) (wblk m c t)) (ix2 p d)).trans ?_
    refine mom1_new m c t p d _ ?_
    rw [pay4_apply, h0, Nat.mul_zero]
    exact (upTo_zero _).symm
  · have hprev := ih h0
    have e1 : (t.val - 1) / 8 = t.val / 8 := by omega
    have e2 : 1024 * ((t.val - 1) % 8) + 1024 = 1024 * (t.val % 8) := by omega
    rw [e1, e2] at hprev
    by_cases h1 : t.val % 8 = 7
    · rw [outsAt0_C m c t h0 h1]
      dsimp only
      refine (congrFun (last_mom1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (xblk m c t) (rblk m c t) (xsqblk m c t) (rsqblk m c t) (wblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 p d)).trans ?_
      exact mom1_new m c t p d _ hprev
    · rw [outsAt0_B m c t h0 h1]
      dsimp only
      refine (congrFun (mid_mom1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (xblk m c t) (rblk m c t) (xsqblk m c t) (rsqblk m c t) (wblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 p d)).trans ?_
      exact mom1_new m c t p d _ hprev

/-- The accumulator after every point, by induction along the grid. -/
theorem mom1_eq (c : Dev nD) : ∀ (n : ℕ) (h : n < cfg0.N) (p : Fin 1024) (d : Fin 256),
    (outsAt0 m c n h).2.1 (ix2 p d) = mom1To (X m c) (R m c) (rowOf (1024 * (n / 8) + p.val)) d (1024 * (n % 8) + 1024)
  | 0, h, p, d => mom1_step m c ⟨0, h⟩ p d (fun hne => absurd rfl hne)
  | n + 1, h, p, d => mom1_step m c ⟨n + 1, h⟩ p d (fun _ => mom1_eq c n (Nat.lt_of_succ_lt h) p d)

/-- One point's term joins the rows taken so far: mom2. -/
theorem mom2_new (c : Dev nD) (t : Fin cfg0.N) (p : Fin 1024) (d : Fin 256) (acc : Vec Ideal S1024x256 .f32)
    (hacc : acc (ix2 p d) = mom2To (X m c) (R m c) (rowOf (1024 * (t.val / 8) + p.val)) d (1024 * (t.val % 8))) :
    k0_pay2 (F := Ideal) (k0_pay10 (F := Ideal) (xblk m c t) (rblk m c t) (xsqblk m c t) (rsqblk m c t)) (k0_pay11 (F := Ideal) (rblk m c t)) acc (ix2 p d) = mom2To (X m c) (R m c) (rowOf (1024 * (t.val / 8) + p.val)) d (1024 * (t.val % 8) + 1024) := by
  refine (pay2_apply (xblk m c t) (rblk m c t) (xsqblk m c t) (rsqblk m c t) acc p d).trans ?_
  unfold mom2To
  simp only [weights_apply, rblk_apply]
  exact upTo_step (fun n => wt (X m c) (R m c) (rowOf (1024 * (t.val / 8) + p.val)) n * (R m c (ix2 n d) * R m c (ix2 n d))) (t.val % 8) _ hacc

/-- The accumulator after point t, given it after the point before (when t is not a row block's first point). -/
theorem mom2_step (c : Dev nD) (t : Fin cfg0.N) (p : Fin 1024) (d : Fin 256)
    (ih : t.val % 8 ≠ 0 → (outsAt0 m c (t.val - 1) (Nat.lt_of_le_of_lt (Nat.sub_le _ _) t.isLt)).2.2.1 (ix2 p d)
        = mom2To (X m c) (R m c) (rowOf (1024 * ((t.val - 1) / 8) + p.val)) d (1024 * ((t.val - 1) % 8) + 1024)) :
    (outsAt0 m c t.val t.isLt).2.2.1 (ix2 p d) = mom2To (X m c) (R m c) (rowOf (1024 * (t.val / 8) + p.val)) d (1024 * (t.val % 8) + 1024) := by
  by_cases h0 : t.val % 8 = 0
  · have h1 : ¬t.val % 8 = 7 := by omega
    rw [outsAt0_A m c t h0 h1]
    dsimp only
    refine (congrFun (first_mom2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (xblk m c t) (rblk m c t) (xsqblk m c t) (rsqblk m c t) (wblk m c t)) (ix2 p d)).trans ?_
    refine mom2_new m c t p d _ ?_
    rw [pay5_apply, h0, Nat.mul_zero]
    exact (upTo_zero _).symm
  · have hprev := ih h0
    have e1 : (t.val - 1) / 8 = t.val / 8 := by omega
    have e2 : 1024 * ((t.val - 1) % 8) + 1024 = 1024 * (t.val % 8) := by omega
    rw [e1, e2] at hprev
    by_cases h1 : t.val % 8 = 7
    · rw [outsAt0_C m c t h0 h1]
      dsimp only
      refine (congrFun (last_mom2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (xblk m c t) (rblk m c t) (xsqblk m c t) (rsqblk m c t) (wblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 p d)).trans ?_
      exact mom2_new m c t p d _ hprev
    · rw [outsAt0_B m c t h0 h1]
      dsimp only
      refine (congrFun (mid_mom2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (xblk m c t) (rblk m c t) (xsqblk m c t) (rsqblk m c t) (wblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 p d)).trans ?_
      exact mom2_new m c t p d _ hprev

/-- The accumulator after every point, by induction along the grid. -/
theorem mom2_eq (c : Dev nD) : ∀ (n : ℕ) (h : n < cfg0.N) (p : Fin 1024) (d : Fin 256),
    (outsAt0 m c n h).2.2.1 (ix2 p d) = mom2To (X m c) (R m c) (rowOf (1024 * (n / 8) + p.val)) d (1024 * (n % 8) + 1024)
  | 0, h, p, d => mom2_step m c ⟨0, h⟩ p d (fun hne => absurd rfl hne)
  | n + 1, h, p, d => mom2_step m c ⟨n + 1, h⟩ p d (fun _ => mom2_eq c n (Nat.lt_of_succ_lt h) p d)

/-- One point's term joins the rows taken so far: wsum. -/
theorem wsum_new (c : Dev nD) (t : Fin cfg0.N) (p : Fin 1024) (u : Fin 1) (acc : Vec Ideal S1024x1 .f32)
    (hacc : acc (ix2 p u) = wsumTo (X m c) (R m c) (rowOf (1024 * (t.val / 8) + p.val)) (1024 * (t.val % 8))) :
    k0_pay9 (F := Ideal) (xblk m c t) (rblk m c t) (xsqblk m c t) (rsqblk m c t) acc (ix2 p u) = wsumTo (X m c) (R m c) (rowOf (1024 * (t.val / 8) + p.val)) (1024 * (t.val % 8) + 1024) := by
  refine (pay9_apply (xblk m c t) (rblk m c t) (xsqblk m c t) (rsqblk m c t) acc p u).trans ?_
  unfold wsumTo
  simp only [weights_apply, rblk_apply]
  exact upTo_step (fun n => wt (X m c) (R m c) (rowOf (1024 * (t.val / 8) + p.val)) n) (t.val % 8) _ hacc

/-- The accumulator after point t, given it after the point before (when t is not a row block's first point). -/
theorem wsum_step (c : Dev nD) (t : Fin cfg0.N) (p : Fin 1024) (u : Fin 1)
    (ih : t.val % 8 ≠ 0 → (outsAt0 m c (t.val - 1) (Nat.lt_of_le_of_lt (Nat.sub_le _ _) t.isLt)).2.2.2 (ix2 p u)
        = wsumTo (X m c) (R m c) (rowOf (1024 * ((t.val - 1) / 8) + p.val)) (1024 * ((t.val - 1) % 8) + 1024)) :
    (outsAt0 m c t.val t.isLt).2.2.2 (ix2 p u) = wsumTo (X m c) (R m c) (rowOf (1024 * (t.val / 8) + p.val)) (1024 * (t.val % 8) + 1024) := by
  by_cases h0 : t.val % 8 = 0
  · have h1 : ¬t.val % 8 = 7 := by omega
    rw [outsAt0_A m c t h0 h1]
    dsimp only
    refine (congrFun (first_wsum (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (xblk m c t) (rblk m c t) (xsqblk m c t) (rsqblk m c t) (wblk m c t)) (ix2 p u)).trans ?_
    refine wsum_new m c t p u _ ?_
    rw [pay6_apply, h0, Nat.mul_zero]
    exact (upTo_zero _).symm
  · have hprev := ih h0
    have e1 : (t.val - 1) / 8 = t.val / 8 := by omega
    have e2 : 1024 * ((t.val - 1) % 8) + 1024 = 1024 * (t.val % 8) := by omega
    rw [e1, e2] at hprev
    by_cases h1 : t.val % 8 = 7
    · rw [outsAt0_C m c t h0 h1]
      dsimp only
      refine (congrFun (last_wsum (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (xblk m c t) (rblk m c t) (xsqblk m c t) (rsqblk m c t) (wblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 p u)).trans ?_
      exact wsum_new m c t p u _ hprev
    · rw [outsAt0_B m c t h0 h1]
      dsimp only
      refine (congrFun (mid_wsum (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (xblk m c t) (rblk m c t) (xsqblk m c t) (rsqblk m c t) (wblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 p u)).trans ?_
      exact wsum_new m c t p u _ hprev

/-- The accumulator after every point, by induction along the grid. -/
theorem wsum_eq (c : Dev nD) : ∀ (n : ℕ) (h : n < cfg0.N) (p : Fin 1024) (u : Fin 1),
    (outsAt0 m c n h).2.2.2 (ix2 p u) = wsumTo (X m c) (R m c) (rowOf (1024 * (n / 8) + p.val)) (1024 * (n % 8) + 1024)
  | 0, h, p, u => wsum_step m c ⟨0, h⟩ p u (fun hne => absurd rfl hne)
  | n + 1, h, p, u => wsum_step m c ⟨n + 1, h⟩ p u (fun _ => wsum_eq c n (Nat.lt_of_succ_lt h) p u)

end Cert.KernelIdeal.Acc

end
-- ==== Proof.Whole.lean ====
/-
  The kernel's result array after the run is the specification's result of the launched arrays.

  The output block of row block q of x is written back once, after the last point of that row block (points with
  t % 8 = 7), when the three accumulators hold the sums over all 8192 rows of r; the closing formula of those sums is
  the specification's result at rows 1024·q … 1024·q + 1023. The eight written blocks tile the [8192, 256] array.
-/
import proofs.«131439_j42932493090900_1_alg».proof.Proof.Gen.KernelIdeal.Frame
import proofs.«131439_j42932493090900_1_alg».proof.Proof.Gen.KernelIdeal.Value
import proofs.«131439_j42932493090900_1_alg».proof.Proof.Spec
import proofs.«131439_j42932493090900_1_alg».proof.Proof.Pieces
import proofs.«131439_j42932493090900_1_alg».proof.Proof.Payloads
import proofs.«131439_j42932493090900_1_alg».proof.Proof.Blocks
import proofs.«131439_j42932493090900_1_alg».proof.Proof.Accum
import Idealize.ShloMosaic.Lib.Pipeline.Value

noncomputable section

namespace Cert.KernelIdeal.Whole

open Cert.KernelIdeal Cert.KernelIdeal.Gen Idealize.ShloMosaic Idealize.ShloMosaic.TcCoe Idealize.ShloMosaic.ValueIdx Idealize.SL.Sem
open Idealize.ShloMosaic.Pipeline (Dat)
open Cert.GaussMoment Cert.KernelIdeal.Blk Cert.KernelIdeal.Pay Cert.KernelIdeal.Piece Cert.KernelIdeal.Acc

variable (m : (ℓ : Loc nD τ sig) → Buf (Elt Ideal) ℓ) (ρ : Dev nD → PrngReg)

/-- The specification's result of the launched arrays. -/
abbrev G (c : Dev nD) : Mat := result (X m c) (R m c) (W m c)

/-- What the point before a row block's later point left in an accumulator, restated at this point's coordinates. -/
theorem prev_mom1 (c : Dev nD) (t : Fin cfg0.N) (h0 : ¬t.val % 8 = 0) (p : Fin 1024) (d : Fin 256) :
    (outsAt0 m c (t.val - 1) (Nat.lt_of_le_of_lt (Nat.sub_le _ _) t.isLt)).2.1 (ix2 p d) = mom1To (X m c) (R m c) (rowOf (1024 * (t.val / 8) + p.val)) d (1024 * (t.val % 8)) := by
  have h := mom1_eq m c (t.val - 1) (Nat.lt_of_le_of_lt (Nat.sub_le _ _) t.isLt) p d
  have e1 : (t.val - 1) / 8 = t.val / 8 := by omega
  have e2 : 1024 * ((t.val - 1) % 8) + 1024 = 1024 * (t.val % 8) := by omega
  rw [e1, e2] at h
  exact h
theorem prev_mom2 (c : Dev nD) (t : Fin cfg0.N) (h0 : ¬t.val % 8 = 0) (p : Fin 1024) (d : Fin 256) :
    (outsAt0 m c (t.val - 1) (Nat.lt_of_le_of_lt (Nat.sub_le _ _) t.isLt)).2.2.1 (ix2 p d) = mom2To (X m c) (R m c) (rowOf (1024 * (t.val / 8) + p.val)) d (1024 * (t.val % 8)) := by
  have h := mom2_eq m c (t.val - 1) (Nat.lt_of_le_of_lt (Nat.sub_le _ _) t.isLt) p d
  have e1 : (t.val - 1) / 8 = t.val / 8 := by omega
  have e2 : 1024 * ((t.val - 1) % 8) + 1024 = 1024 * (t.val % 8) := by omega
  rw [e1, e2] at h
  exact h
theorem prev_wsum (c : Dev nD) (t : Fin cfg0.N) (h0 : ¬t.val % 8 = 0) (p : Fin 1024) (u : Fin 1) :
    (outsAt0 m c (t.val - 1) (Nat.lt_of_le_of_lt (Nat.sub_le _ _) t.isLt)).2.2.2 (ix2 p u) = wsumTo (X m c) (R m c) (rowOf (1024 * (t.val / 8) + p.val)) (1024 * (t.val % 8)) := by
  have h := wsum_eq m c (t.val - 1) (Nat.lt_of_le_of_lt (Nat.sub_le _ _) t.isLt) p u
  have e1 : (t.val - 1) / 8 = t.val / 8 := by omega
  have e2 : 1024 * ((t.val - 1) % 8) + 1024 = 1024 * (t.val % 8) := by omega
  rw [e1, e2] at h
  exact h

/-- At a row block's last point the output block holds the specification's result at the block's rows. -/
theorem out_apply (c : Dev nD) (t : Fin cfg0.N) (h0 : ¬t.val % 8 = 0) (h1 : t.val % 8 = 7) (p : Fin 1024) (d : Fin 256) :
    (outsAt0 m c t.val t.isLt).1 (ix2 p d) = G m c (ix2 (rowOf (1024 * (t.val / 8) + p.val)) d) := by
  rw [outsAt0_C m c t h0 h1]
  dsimp only
  refine (congrFun (last_out (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (xblk m c t) (rblk m c t) (xsqblk m c t) (rsqblk m c t) (wblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 p d)).trans ?_
  refine (pay3_apply _ _ _ _ _ p d).trans ?_
  rw [mom2_new m c t p d _ (prev_mom2 m c t h0 p d), mom1_new m c t p d _ (prev_mom1 m c t h0 p d),
    wsum_new m c t p 0 _ (prev_wsum m c t h0 p 0), xblk_apply, wblk_apply]
  have e : 1024 * (t.val % 8) + 1024 = 8192 := by omega
  rw [e]
  rfl

/-- The output window's block index at point t: row block t / 8, the one column block. -/
theorem idx_out : ∀ t : Fin cfg0.N, win0_5.index t (0 : Fin 2) = t.val / 8 ∧ win0_5.index t (1 : Fin 2) = 0 :=
  (by decide +kernel : ∀ t : Fin grid0.N, _)

/-- What a writing point writes back is its block of the specification's result: row p of the block is row
    1024·(t / 8) + p of the array. -/
theorem flushed_eq (c : Dev nD) (t : Fin cfg0.N) (hf : (cfg0.win 5).flush t = true) :
    (dats m 0 c).flushed 5 t = ((cfg0.win 5).blk t).view.read (Elt Ideal) (G m c) := by
  have h1 : t.val % 8 = 7 := (flush0_5 t).mp hf
  have h0 : ¬t.val % 8 = 0 := by omega
  have hN : t.val < 64 := lt_of_lt_of_eq t.isLt (show cfg0.N = 64 from N_0)
  obtain ⟨e0, e1⟩ := idx_out t
  rw [Value.flushed5]
  funext j
  show (outsAt0 m c t.val t.isLt).1 j = G m c (((cfg0.win 5).blk t).view.emb j)
  obtain ⟨p, d, rfl⟩ : ∃ (p : Fin 1024) (d : Fin 256), j = ix2 p d := ⟨j 0, j 1, eq_ix2 j⟩
  rw [out_apply m c t h0 h1 p d]
  have hp : p.val < 1024 := p.isLt
  refine congrArg (G m c) (funext fun a => Fin.ext ?_)
  match a with
  | ⟨0, _⟩ =>
    show (rowOf (1024 * (t.val / 8) + p.val)).val = win0_5.index t (0 : Fin 2) * 1024 + 1 * p.val
    rw [e0, rowOf_coe (by omega)]; omega
  | ⟨1, _⟩ =>
    show d.val = win0_5.index t (1 : Fin 2) * 256 + 1 * d.val
    rw [e1]; omega

/-- An index of the array is in point t's block iff each coordinate is in the block's range on its axis. -/
theorem mem_blk (t : Fin cfg0.N) (i : S8192x256.Idx) :
    i ∈ ((cfg0.win 5).blk t).view.set ↔ ∀ a : Fin 2, win0_5.index t a * S1024x256.size a ≤ (i a).val
      ∧ (i a).val < win0_5.index t a * S1024x256.size a + S1024x256.size a := by
  show i ∈ ((View.whole main_v7).slice (win0_5.rect t)).set ↔ _
  rw [View.set_slice_whole, Rect.mem_set_unit]
  exact Iff.rfl

/-- Every row r of the array lies in the block written after the last point of row block r / 1024. -/
theorem cover (i : S8192x256.Idx) :
    ∃ t : Fin cfg0.N, (cfg0.win 5).flush t = true ∧ i ∈ ((cfg0.win 5).blk t).view.set := by
  have hi0 : (i 0).val < 8192 := (i 0).isLt
  have hi1 : (i 1).val < 256 := (i 1).isLt
  have hN : cfg0.N = 64 := N_0
  have hlt : 8 * ((i 0).val / 1024) + 7 < cfg0.N := by rw [hN]; omega
  obtain ⟨e0, e1⟩ := idx_out ⟨8 * ((i 0).val / 1024) + 7, hlt⟩
  refine ⟨⟨8 * ((i 0).val / 1024) + 7, hlt⟩, (flush0_5 _).mpr (by show (8 * ((i 0).val / 1024) + 7) % 8 = 7; omega), ?_⟩
  rw [mem_blk]
  intro a
  match a with
  | ⟨0, _⟩ =>
    show win0_5.index ⟨8 * ((i 0).val / 1024) + 7, hlt⟩ (0 : Fin 2) * 1024 ≤ (i 0).val
      ∧ (i 0).val < win0_5.index ⟨8 * ((i 0).val / 1024) + 7, hlt⟩ (0 : Fin 2) * 1024 + 1024
    rw [e0]
    show (8 * ((i 0).val / 1024) + 7) / 8 * 1024 ≤ (i 0).val ∧ (i 0).val < (8 * ((i 0).val / 1024) + 7) / 8 * 1024 + 1024
    omega
  | ⟨1, _⟩ =>
    show win0_5.index ⟨8 * ((i 0).val / 1024) + 7, hlt⟩ (1 : Fin 2) * 256 ≤ (i 1).val
      ∧ (i 1).val < win0_5.index ⟨8 * ((i 0).val / 1024) + 7, hlt⟩ (1 : Fin 2) * 256 + 256
    rw [e1]; omega

/-- So the result array ends holding the specification's result of the launched arrays. -/
theorem final (c : Dev nD) : (dats m 0 c).arrAt 5 cfg0.N = G m c :=
  (dats m 0 c).arrAt_eq_of_cover 5 (G m c) (flushed_eq m c) cover

/-- The run, read: the result array at the specification's result, the arguments unchanged. -/
theorem run : θ_run defs (onTc (τ := τ) (main (F := Ideal))) ⟨m, fun _ => 0, ρ⟩ fun r => ∀ c : Dev nD,
      r.2.mem ((c : Thread nD τ).loc main_v7) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.Consts.lean ====
/-
  The two float constants in which the kernel and the reference differ, as the extended reals their patterns denote.
  The kernel scales the squared distance by the pattern of -1/128 (a product); the reference negates it and divides
  by the pattern of 128. On every extended real, infinities included, the two are one value: division by a nonzero
  real is the product with its reciprocal, and a sign moves freely between the factors of a product.
-/
import Idealize.ShloMosaic.PureOps.Ideal
import Idealize.ShloMosaic.PureOps.Ideal.Laws

noncomputable section

namespace Cert.GaussMoment

open Idealize.ShloMosaic

/-- The pattern 0x43000000 denotes the real 128. -/
theorem ofBits_128 : Ideal.ofBits .f32 0x43000000#32 = ((128 : ℝ) : EReal) := by
  simp [Ideal.ofBits, Ideal.ieee, -EReal.coe_mul]; norm_num

/-- The pattern 0xBC000000 denotes the real -1/128. -/
theorem ofBits_neg_inv_128 : Ideal.ofBits .f32 0xBC000000#32 = ((-(1 / 128) : ℝ) : EReal) := by
  simp [Ideal.ofBits, Ideal.ieee, -EReal.coe_mul]; norm_num

/-- Negating and then dividing by 128 is multiplying by -1/128, on every extended real. -/
theorem neg_div_128 (p : EReal) :
    Ideal.div (-p) (Ideal.ofBits .f32 0x43000000#32) = p * Ideal.ofBits .f32 0xBC000000#32 := by
  rw [ofBits_128, ofBits_neg_inv_128, Ideal.div_coe (by norm_num : (128 : ℝ) ≠ 0), EReal.coe_neg, neg_mul, mul_neg]

end Cert.GaussMoment

end
-- ==== Proof.RefResult.lean ====
/-
  The reference, operation by operation, is the specification's result: row sums of squares, one whole matrix product
  for the cross terms, the Gaussian weights, their row sum and the two weighted moments as whole matrix products, then
  the closing formula. Its scale is a negation followed by a division by 128, which is the product with -1/128.
-/
import proofs.«131439_j42932493090900_1_alg».proof.Proof.Gen.ReferenceIdeal.Read
import proofs.«131439_j42932493090900_1_alg».proof.Proof.Spec
import proofs.«131439_j42932493090900_1_alg».proof.Proof.Consts
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.GaussMoment

/-- The squared norm of row b of x, as the reference sums it. -/
theorem sqn_x (x : (⟨S8192x256, .f32⟩ : BufTy).Contents (Elt Ideal)) (b : Fin 8192) :
    val_main_v1 (F := Ideal) x (ix1 b) = sqn x b := by
  have e : ∀ k : Fin 256, idx_main_v1 (ix1 b) k = ix2 b k := fun k =>
    funext fun a => by match a with | ⟨0, _⟩ => rfl | ⟨1, _⟩ => rfl
  rw [val_main_v1_apply, val_main_cst_apply, Ideal.ofBits_def, Ideal.ofBits_zero_f32, zero_add]
  unfold sqn
  refine Finset.sum_congr rfl fun k _ => ?_
  rw [val_main_v0_apply, Ideal.mulf_def, e]

/-- The squared norm of row n of r, as the reference sums it. -/
theorem sqn_r (r : (⟨S8192x256, .f32⟩ : BufTy).Contents (Elt Ideal)) (n : Fin 8192) :
    val_main_v3 (F := Ideal) r (ix1 n) = sqn r n := by
  have e : ∀ k : Fin 256, idx_main_v3 (ix1 n) k = ix2 n k := fun k =>
    funext fun a => by match a with | ⟨0, _⟩ => rfl | ⟨1, _⟩ => rfl
  rw [val_main_v3_apply, val_main_cst_0_apply, Ideal.ofBits_def, Ideal.ofBits_zero_f32, zero_add]
  unfold sqn
  refine Finset.sum_congr rfl fun k _ => ?_
  rw [val_main_v2_apply, Ideal.mulf_def, e]

/-- The matrix product of x with the transpose of r, at (b, n), is the inner product of the two rows. -/
theorem cross_eq (x r : (⟨S8192x256, .f32⟩ : BufTy).Contents (Elt Ideal)) (b n : Fin 8192) :
    val_main_v5 (F := Ideal) x r (ix2 b n) = cross x r b n := by
  have el : ∀ k : Fin 256, lidx_main_v5 (ix2 b n) k = ix2 b k := fun k =>
    funext fun a => by match a with | ⟨0, _⟩ => rfl | ⟨1, _⟩ => rfl
  have er : ∀ k : Fin 256, idx_main_v4 (ridx_main_v5 (ix2 b n) k) = ix2 n k := fun k =>
    funext fun a => by match a with | ⟨0, _⟩ => rfl | ⟨1, _⟩ => rfl
  rw [val_main_v5_apply]
  unfold cross
  refine Finset.sum_congr rfl fun k _ => ?_
  rw [val_main_v4_apply, el, er]

/-- The reference's weight at (b, n) is the specification's. -/
theorem weight_eq (x r : (⟨S8192x256, .f32⟩ : BufTy).Contents (Elt Ideal)) (b n : Fin 8192) :
    val_main_v17 (F := Ideal) x r (ix2 b n) = wt x r b n := by
  have e8 : idx_main_v6 (idx_main_v8 (ix2 b n)) = ix1 b :=
    funext fun a => by match a with | ⟨0, _⟩ => rfl
  have e9 : idx_main_v7 (idx_main_v9 (ix2 b n)) = ix1 n :=
    funext fun a => by match a with | ⟨0, _⟩ => rfl
  rw [val_main_v17_apply, val_main_v16_apply, val_main_v14_apply, val_main_v13_apply, val_main_v10_apply,
    val_main_v12_apply, val_main_v8_apply, val_main_v6_apply, val_main_v9_apply, val_main_v7_apply,
    val_main_v11_apply, val_main_cst_1_apply, val_main_v15_apply, val_main_cst_2_apply, e8, e9, sqn_x, sqn_r,
    cross_eq]
  simp only [Ideal.hostUnary_exp_def, Ideal.hostDivf_def, Ideal.hostNegf_def, Ideal.negf_def, Ideal.subf_def,
    Ideal.addf_def, Ideal.mulf_def, Ideal.ofBits_def]
  rw [neg_div_128]
  rfl

/-- The row sum of the weights. -/
theorem wsum_eq (x r : (⟨S8192x256, .f32⟩ : BufTy).Contents (Elt Ideal)) (b : Fin 8192) :
    val_main_v18 (F := Ideal) x r (ix1 b) = ∑ n : Fin 8192, wt x r b n := by
  have e : ∀ k : Fin 8192, idx_main_v18 (ix1 b) k = ix2 b k := fun k =>
    funext fun a => by match a with | ⟨0, _⟩ => rfl | ⟨1, _⟩ => rfl
  rw [val_main_v18_apply, val_main_cst_3_apply, Ideal.ofBits_def, Ideal.ofBits_zero_f32, zero_add]
  refine Finset.sum_congr rfl fun k _ => ?_
  rw [e, weight_eq]

/-- The first weighted moment: the weights' matrix product with r. -/
theorem mom1_eq (x r : (⟨S8192x256, .f32⟩ : BufTy).Contents (Elt Ideal)) (b : Fin 8192) (d : Fin 256) :
    val_main_v24 (F := Ideal) x r (ix2 b d) = ∑ n : Fin 8192, wt x r b n * r (ix2 n d) := by
  have el : ∀ k : Fin 8192, lidx_main_v24 (ix2 b d) k = ix2 b k := fun k =>
    funext fun a => by match a with | ⟨0, _⟩ => rfl | ⟨1, _⟩ => rfl
  have er : ∀ k : Fin 8192, ridx_main_v24 (ix2 b d) k = ix2 k d := fun k =>
    funext fun a => by match a with | ⟨0, _⟩ => rfl | ⟨1, _⟩ => rfl
  rw [val_main_v24_apply]
  refine Finset.sum_congr rfl fun k _ => ?_
  rw [el, er, weight_eq]

/-- The second weighted moment: the weights' matrix product with the squares of r. -/
theorem mom2_eq (x r : (⟨S8192x256, .f32⟩ : BufTy).Contents (Elt Ideal)) (b : Fin 8192) (d : Fin 256) :
    val_main_v21 (F := Ideal) x r (ix2 b d) = ∑ n : Fin 8192, wt x r b n * (r (ix2 n d) * r (ix2 n d)) := by
  have el : ∀ k : Fin 8192, lidx_main_v21 (ix2 b d) k = ix2 b k := fun k =>
    funext fun a => by match a with | ⟨0, _⟩ => rfl | ⟨1, _⟩ => rfl
  have er : ∀ k : Fin 8192, ridx_main_v21 (ix2 b d) k = ix2 k d := fun k =>
    funext fun a => by match a with | ⟨0, _⟩ => rfl | ⟨1, _⟩ => rfl
  rw [val_main_v21_apply]
  refine Finset.sum_congr rfl fun k _ => ?_
  rw [el, er, weight_eq, val_main_v20_apply, Ideal.mulf_def]

/-- The reference's last stage, at the ideal instance, is the specification's result array. -/
theorem ref_eq (x r : (⟨S8192x256, .f32⟩ : BufTy).Contents (Elt Ideal)) (w : (⟨S1x1, .f32⟩ : BufTy).Contents (Elt Ideal)) :
    val_main_v36 (F := Ideal) x r w = result x r w := by
  funext i
  obtain ⟨b, d, rfl⟩ : ∃ (b : Fin 8192) (d : Fin 256), i = ix2 b d := ⟨i 0, i 1, eq_ix2 i⟩
  have e28 : idx_main_v19 (idx_main_v28 (ix2 b d)) = ix1 b :=
    funext fun a => by match a with | ⟨0, _⟩ => rfl
  have e31 : idx_main_v31 (ix2 b d) = ix2 (0 : Fin 1) (0 : Fin 1) :=
    funext fun a => by match a with | ⟨0, _⟩ => rfl | ⟨1, _⟩ => rfl
  rw [val_main_v36_apply, val_main_v35_apply, val_main_cst_6_apply, val_main_v34_apply, val_main_v33_apply,
    val_main_cst_5_apply, val_main_v32_apply, val_main_v31_apply, val_main_v30_apply, val_main_v29_apply,
    val_main_v28_apply, val_main_v19_apply, val_main_v27_apply, val_main_v26_apply, val_main_v25_apply,
    val_main_v23_apply, val_main_v22_apply, val_main_cst_4_apply, e28, e31, wsum_eq, mom1_eq, mom2_eq]
  simp only [Ideal.hostDivf_def, Ideal.subf_def, Ideal.addf_def, Ideal.mulf_def, Ideal.ofBits_def]
  unfold result close wsumTo mom1To mom2To
  rw [← sum_eq_upTo, ← sum_eq_upTo, ← sum_eq_upTo]

end Cert.ReferenceIdeal.RefValue

end
-- ==== Proof.lean ====
/-
  The certificate's claim: the three frames, the (empty) idealization ledger, and the equivalence of the idealized
  kernel and the idealized reference over the extended reals.

  Both programs compute, for x, r : [8192, 256] and a scalar w,
    result[b,d] = 1 / (w · ((∑_n wt b n · r[n,d]² − (2 · x[b,d]) · ∑_n wt b n · r[n,d]) + x[b,d]² · ∑_n wt b n) + 0.001),
    wt b n = exp ((|x_b|² + |r_n|² − 2 · ⟨x_b, r_n⟩) · (−1/128)).
  The reference takes the sums over n whole, as matrix products over all 8192 rows of r, and scales by a negation and a
  division by 128. The kernel takes the rows of r 1024 at a time along a grid axis, carrying the three sums in
  scratch accumulators that it resets at a row block's first point and closes into the output block at its last,
  and scales by a product with -1/128. Addition on the extended reals is commutative and associative, so the sums
  agree without any appeal to finiteness, and the two scalings are one function on every extended real.
-/
import proofs.«131439_j42932493090900_1_alg».proof.Defs
import proofs.«131439_j42932493090900_1_alg».proof.Proof.Gen.Kernel
import proofs.«131439_j42932493090900_1_alg».proof.Proof.Gen.Kernel.Skeleton
import proofs.«131439_j42932493090900_1_alg».proof.Proof.Gen.Kernel.Launch
import proofs.«131439_j42932493090900_1_alg».proof.Proof.Gen.Kernel.Points
import proofs.«131439_j42932493090900_1_alg».proof.Proof.Gen.Kernel.Frame
import proofs.«131439_j42932493090900_1_alg».proof.Proof.Gen.KernelIdeal
import proofs.«131439_j42932493090900_1_alg».proof.Proof.Gen.KernelIdeal.Skeleton
import proofs.«131439_j42932493090900_1_alg».proof.Proof.Gen.KernelIdeal.Launch
import proofs.«131439_j42932493090900_1_alg».proof.Proof.Gen.KernelIdeal.Points
import proofs.«131439_j42932493090900_1_alg».proof.Proof.Gen.KernelIdeal.Frame
import proofs.«131439_j42932493090900_1_alg».proof.Proof.Gen.ReferenceIdeal
import proofs.«131439_j42932493090900_1_alg».proof.Proof.Gen.KernelIdeal.Value
import proofs.«131439_j42932493090900_1_alg».proof.Proof.Gen.ReferenceIdeal.Run
import proofs.«131439_j42932493090900_1_alg».proof.Proof.Gen.ReferenceIdeal.Read
import proofs.«131439_j42932493090900_1_alg».proof.Proof.Gen.Pre_finite_inputs
import Idealize.ShloMosaic.Adequacy
import Idealize.ShloMosaic.Init
import proofs.«131439_j42932493090900_1_alg».proof.Proof.Whole
import proofs.«131439_j42932493090900_1_alg».proof.Proof.RefResult

noncomputable section

namespace Cert.Proof

open Idealize.ShloMosaic Idealize.SL.Sem

/-- The printed kernel runs, and leaves its arguments as they were. -/
theorem frame_kernel : Cert.frame_Kernel := fun m ρ _ => Cert.Kernel.Gen.frame m ρ

/-- The idealized kernel runs, and leaves its arguments as they were. -/
theorem frame_kernel_ideal : Cert.frame_KernelIdeal := fun m ρ _ => Cert.KernelIdeal.Gen.frame m ρ

/-- The idealized reference runs, and leaves its arguments as they were: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments, the idealized kernel's result array ends at the specification's result
    of the arguments, and the idealized reference's last stage is that same function of them. -/
theorem algebraic : Cert.algebraic_KernelIdeal_ReferenceIdeal := by
  intro m ρ m' ρ' _ hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.ReferenceIdeal.RefValue.ref_eq, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
